-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096x64 : Shape := ⟨2, ![4096, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S8192x64 .f32) (main_arg1 : FVec F S8192x64 .f32) (main_arg2 : FVec F S8192x64 .f32) (main_arg3 : FVec F S4096x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S8192x64 : Shape := ⟨2, ![8192, 64]⟩
abbrev S4096x64 : Shape := ⟨2, ![4096, 64]⟩
abbrev S4x8x64 : Shape := ⟨3, ![4, 8, 64]⟩
abbrev S2048x64 : Shape := ⟨2, ![2048, 64]⟩
abbrev S1024x64 : Shape := ⟨2, ![1024, 64]⟩
abbrev S1x8x64 : Shape := ⟨3, ![1, 8, 64]⟩
abbrev S2048x1 : Shape := ⟨2, ![2048, 1]⟩
abbrev S64x1024 : Shape := ⟨2, ![64, 1024]⟩
abbrev S2048x1024 : Shape := ⟨2, ![2048, 1024]⟩
abbrev S2048 : Shape := ⟨1, ![2048]⟩
abbrev S64 : Shape := ⟨1, ![64]⟩
abbrev S1x64 : Shape := ⟨2, ![1, 64]⟩
abbrev S8x64 : Shape := ⟨2, ![8, 64]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S4096x64, .f32⟩
  | .hbm, ⟨4, _⟩ => ⟨S8192x64, .f32⟩
  | .hbm, ⟨5, _⟩ => ⟨S4x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S1x8x64, .f32⟩
  | .local _ .vmem, ⟨11, _⟩ => ⟨S1x8x64, .f32⟩
  | .local _ .vmem, ⟨12, _⟩ => ⟨S2048x1, .f32⟩
  | .local _ .vmem, ⟨13, _⟩ => ⟨S2048x1, .f32⟩
  | .local _ .vmem, ⟨14, _⟩ => ⟨S2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  natLt_1_32 : 1 < 32
  transposes_S1024x64_p1_0_S64x1024 : S1024x64.Transposes [1, 0] S64x1024
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  reduces_S2048x64_S64 : S2048x64.Reduces [0] S64
  shapeCasts_S64_S1x64 : S64.ShapeCasts S1x64
  iota_S8x64_d0_w32 : S8x64.Iotas .tc 32 [0]
  shapeCasts_S1x64_S1x64 : S1x64.ShapeCasts S1x64
  broadcasts_S1x64_S8x64 : S1x64.Broadcasts S8x64
  shapeCasts_S8x64_S1x8x64 : S8x64.ShapeCasts S1x8x64
  inb_S1x8x64_S1x8x64_0_0_0 : ∀ a, (![0, 0, 0] : Fin 3 → Nat) a + S1x8x64.size a ≤ S1x8x64.size a
  h_S1x8x64 : 0 < S1x8x64.numel
  reducesTo_S4x8x64_S_d0_1_2 : S4x8x64.ReducesTo [0, 1, 2] S_
  h_S_ : 0 < S_.numel
  dot_S2048x64_S64x1024_S2048x1024_1_0_0_1_n_n_wf : DotDims.WF S2048x64 S64x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S8192x64.size a
  hwx0_4 : ∀ i : grid0.Coords, EltTy.bits .f32 = 32 ∨ (Rect.block (s := S8192x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x64.size a ≤ S4x8x64.size a
  hwx0_5 : ∀ i : grid0.Coords, EltTy.bits .f32 = 32 ∨ (Rect.block (s := S4x8x64) S1x8x64.size (cc0_transform_5 i) (hinb0_5 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S4096x64 : Shape := ⟨2, ![4096, 64]⟩
abbrev S64x8192 : Shape := ⟨2, ![64, 8192]⟩
abbrev S4096x8192 : Shape := ⟨2, ![4096, 8192]⟩
abbrev S_ : Shape := ⟨0, ![]⟩
abbrev S8192 : Shape := ⟨1, ![8192]⟩
abbrev S1x8192 : Shape := ⟨2, ![1, 8192]⟩
abbrev S64x4096 : Shape := ⟨2, ![64, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S4096x64, .f32⟩
  | .hbm, ⟨4, _⟩ => ⟨S64x8192, .f32⟩
  | .hbm, ⟨5, _⟩ => ⟨S4096x8192, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S4096x64, .f32⟩
  | .hbm, ⟨16, _⟩ => ⟨S4096x64, .i1⟩
  | .hbm, ⟨17, _⟩ => ⟨S4096x64, .f32⟩
  | .hbm, ⟨18, _⟩ => ⟨S64x4096, .f32⟩
  | .hbm, ⟨19, _⟩ => ⟨S64x8192, .f32⟩
  | .hbm, ⟨20, _⟩ => ⟨S1x8192, .f32⟩
  | .hbm, ⟨21, _⟩ => ⟨S64x8192, .f32⟩
  | .hbm, ⟨22, _⟩ => ⟨S64x8192, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S_, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S_, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  transposes_S8192x64_S64x8192_1_0 : S8192x64.Transposes [1, 0] S64x8192
  reducesTo_S4096x8192_S8192_d0 : S4096x8192.ReducesTo [0] S8192
  h_S_ : 0 < S_.numel
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x64 : S_.BroadcastsInDim S4096x64 (![] : Fin 0 → Fin S4096x64.rank)
  transposes_S4096x64_S64x4096_1_0 : S4096x64.Transposes [1, 0] S64x4096
  bcast_S1x8192_S64x8192_0_1 : S1x8192.BroadcastsInDim S64x8192 (![0, 1] : Fin 2 → Fin S64x8192.rank)
  transposes_S64x8192_S8192x64_1_0 : S64x8192.Transposes [1, 0] S8192x64
  bcast_S_S8192x64 : S_.BroadcastsInDim S8192x64 (![] : Fin 0 → Fin S8192x64.rank)
  reducesTo_S8192x64_S8192_d1 : S8192x64.ReducesTo [1] S8192
  bcast_S_S8192 : S_.BroadcastsInDim S8192 (![] : Fin 0 → Fin S8192.rank)
  reducesTo_S8192_S_d0 : S8192.ReducesTo [0] S_
  dot_S4096x64_S64x8192_S4096x8192_1_0_0_1_n_n_wf : DotDims.WF S4096x64 S64x8192 S4096x8192 [1] [0] [0] [1] [] []
  dot_S64x4096_S4096x8192_S64x8192_1_0_0_1_n_n_wf : DotDims.WF S64x4096 S4096x8192 S64x8192 [1] [0] [0] [1] [] []

variable [Facts₀]

def dot_S4096x64_S64x8192_S4096x8192_1_0_0_1_n_n : DotDims S4096x64 S64x8192 S4096x8192 where
  lhsContracting := [1]
  rhsContracting := [0]
  lhsNonContracting := [0]
  rhsNonContracting := [1]
  lhsBatch := []
  rhsBatch := []
  wf := dot_S4096x64_S64x8192_S4096x8192_1_0_0_1_n_n_wf
def dot_S64x4096_S4096x8192_S64x8192_1_0_0_1_n_n : DotDims S64x4096 S4096x8192 S64x8192 where
  lhsContracting := [1]
  rhsContracting := [0]
  lhsNonContracting := [0]
  rhsNonContracting := [1]
  lhsBatch := []
  rhsBatch := []
  wf := dot_S64x4096_S4096x8192_S64x8192_1_0_0_1_n_n_wf

class Facts : Prop extends Facts₀ where

variable [Facts]
-- ==== Proof.Spec.lean ====
/-
  The mathematics of this certificate, stated over the extended reals and over no program.

  A row's scores against the 4096 states are cut into four tiles of 1024. The kernel keeps, per row, a running
  maximum `m`, a running denominator `l` and a running numerator `acc j` per label, and updates them tile by
  tile (`step`): with `m'` the new maximum and `α = exp (m - m')`,
      l'     = α · l     + ∑ₛ exp (scₛ - m'),
      acc' j = α · acc j + ∑ₛ exp (scₛ - m') · wₛⱼ.
  The reference subtracts the maximum over all 4096 states once. A softmax ratio does not depend on the shift:
  `(∑ exp (scₛ - a) wₛ) / (∑ exp (scₛ - a))` is the same for every finite `a`, because `exp (x - a) = exp (x - b) · exp (b - a)`
  on the reals; so the two ratios agree although the two shifts are computed differently. The ratio lies in
  `[0, 1]` (the weights are 0 or 1 and every `exp` is positive), so clamping it to `[0, 1]` changes nothing.
  The loss is a sum of finitely many finite terms divided by 64 · 8192 = 524288 in one step or in two.
-/
import Idealize.ShloMosaic.PureOps.Ideal
import Idealize.ShloMosaic.Lib.ValueIdx

noncomputable section

namespace Cert.Spec

open Idealize.ShloMosaic Idealize.ShloMosaic.ValueIdx

/-! ## The arrays -/

/-- A [8192, 64] array of extended reals: the logits `f`, the targets `y`, the label mask. -/
abbrev ArrB : Type := (⟨2, ![8192, 64]⟩ : Shape).Idx → EReal
/-- The [4096, 64] state matrix. -/
abbrev ArrS : Type := (⟨2, ![4096, 64]⟩ : Shape).Idx → EReal
/-- The [4, 8, 64] array of per-tile partial sums the kernel writes. -/
abbrev ArrP : Type := (⟨3, ![4, 8, 64]⟩ : Shape).Idx → EReal

/-- Every entry is a real number. -/
def Finite {ι : Type} (a : ι → EReal) : Prop := ∀ i, ∃ x : ℝ, a i = (x : EReal)

/-! ## The words of the two programs -/

abbrev zero32 : EReal := Ideal.ofBits .f32 0x00000000#32
abbrev one32 : EReal := Ideal.ofBits .f32 0x3F800000#32
/-- -100.0 -/
abbrev floor32 : EReal := Ideal.ofBits .f32 0xC2C80000#32
/-- 64.0 -/
abbrev c64 : EReal := Ideal.ofBits .f32 0x42800000#32
/-- 8192.0 -/
abbrev c8192 : EReal := Ideal.ofBits .f32 0x46000000#32
/-- 524288.0 -/
abbrev c524288 : EReal := Ideal.ofBits .f32 0x49000000#32

/-- The indicator of a positive entry. -/
def ind (x : EReal) : EReal := if 0 < x then 1 else 0

/-! ## Scores and tiles -/

/-- State `s'` of tile `k` (tiles of 1024 states; total by reduction modulo 4096). -/
def sIdx (k : ℕ) (s' : Fin 1024) : Fin 4096 := ⟨(1024 * k + s'.val) % 4096, Nat.mod_lt _ (by norm_num)⟩
/-- Row `r` of row tile `i` (tiles of 2048 rows; total by reduction modulo 8192). -/
def bIdx (i : ℕ) (r : Fin 2048) : Fin 8192 := ⟨(2048 * i + r.val) % 8192, Nat.mod_lt _ (by norm_num)⟩

variable (f y mk : ArrB) (S : ArrS)

/-- The score of row `b` against state `s`. -/
def score (b : Fin 8192) (s : Fin 4096) : EReal := ∑ j : Fin 64, f (ix2 b j) * S (ix2 s j)

/-! ## The kernel's running state -/

/-- One row's running maximum, denominator and numerators. -/
structure St where
  m : EReal
  l : EReal
  acc : Fin 64 → EReal

/-- What the first point of a row tile stores before it computes. -/
def reset : St := ⟨⊥, 0, fun _ => 0⟩

/-- One tile's update of a row's state, over the tile's scores `sc` and weights `w`. -/
def step (sc : Fin 1024 → EReal) (w : Fin 1024 → Fin 64 → EReal) (st : St) : St :=
  { m := max st.m (Finset.univ.fold max ⊥ sc)
    l := Ideal.exp (st.m - max st.m (Finset.univ.fold max ⊥ sc)) * st.l
          + ∑ s' : Fin 1024, Ideal.exp (sc s' - max st.m (Finset.univ.fold max ⊥ sc))
    acc := fun j => Ideal.exp (st.m - max st.m (Finset.univ.fold max ⊥ sc)) * st.acc j
          + ∑ s' : Fin 1024, Ideal.exp (sc s' - max st.m (Finset.univ.fold max ⊥ sc)) * w s' j }

/-- Tile `k`'s scores of row `b`. -/
def tileSc (b : Fin 8192) (k : ℕ) : Fin 1024 → EReal := fun s' => score f S b (sIdx k s')
/-- Tile `k`'s weights: the indicator of the positive entries of `S`. -/
def tileW (k : ℕ) : Fin 1024 → Fin 64 → EReal := fun s' j => ind (S (ix2 (sIdx k s') j))

/-- Row `b`'s state after tiles `0 … k`. -/
def stAfter (b : Fin 8192) : ℕ → St
  | 0 => step (tileSc f S b 0) (tileW S 0) reset
  | k + 1 => step (tileSc f S b (k + 1)) (tileW S (k + 1)) (stAfter b k)

/-! ## The kernel's two results -/

/-- The marginal the kernel writes: the ratio after the fourth tile, clamped to [0, 1]. -/
def pmK (b : Fin 8192) (j : Fin 64) : EReal :=
  min one32 (max zero32 (Ideal.div ((stAfter f S b 3).acc j) (stAfter f S b 3).l))

/-- The kernel's cross-entropy term of a marginal `p`. -/
def bceK (p yv mv : EReal) : EReal :=
  (zero32 - (yv * max (Ideal.log p) floor32 + (one32 - yv) * max (Ideal.log1p (zero32 - p)) floor32)) * mv

/-- The kernel's [4, 8, 64] array of partial sums: row 0 of tile `i` holds the tile's column sums, rows 1 … 7 zero. -/
def partK : ArrP := fun q =>
  (∑ r : Fin 2048, bceK (pmK f S (bIdx (q 0).val r) (q 2)) (y (ix2 (bIdx (q 0).val r) (q 2))) (mk (ix2 (bIdx (q 0).val r) (q 2))))
    * (if (q 1).val = 0 then 1 else 0)

/-- The kernel's loss. -/
def lossK : EReal := Ideal.div (zero32 + ∑ q : (⟨3, ![4, 8, 64]⟩ : Shape).Idx, partK f y mk S q) c524288

/-! ## The reference's two results -/

/-- The reference's shift: the maximum of row `b`'s scores over all states. -/
def mxR (b : Fin 8192) : EReal := Finset.univ.fold max ⊥ (fun s : Fin 4096 => score f S b s)
/-- The reference's exponentials. -/
def expR (b : Fin 8192) (s : Fin 4096) : EReal := Ideal.exp (score f S b s - mxR f S b)
/-- The reference's marginal. -/
def pmR (b : Fin 8192) (j : Fin 64) : EReal :=
  Ideal.div (∑ s : Fin 4096, ind (S (ix2 s j)) * expR f S b s) (zero32 + ∑ s : Fin 4096, expR f S b s)

/-- The reference's cross-entropy term of a marginal `p`. -/
def bceR (p yv mv : EReal) : EReal :=
  -(yv * max (Ideal.log p) floor32 + (one32 - yv) * max (Ideal.log1p (-p)) floor32) * mv

/-- The reference's loss: the mean over the labels, then over the rows. -/
def lossR : EReal :=
  Ideal.div (zero32 + ∑ b : Fin 8192,
    Ideal.div (zero32 + ∑ j : Fin 64, bceR (pmR f S b j) (y (ix2 b j)) (mk (ix2 b j))) c64) c8192

end Cert.Spec

end
-- ==== Proof.SpecSoftmax.lean ====
/-
  The marginals agree. With every score a real number, a row's state after the fourth tile has a real maximum
  `a`, denominator `∑ₛ exp (scₛ - a)` and numerators `∑ₛ exp (scₛ - a) · wₛⱼ` over all 4096 states: each update
  rescales the old sums by `exp (m - m')`, and `exp (x - m) · exp (m - m') = exp (x - m')`. The reference has the
  same two sums at its own shift. A ratio of such sums does not depend on the shift, and since every weight is
  0 or 1 and every exponential positive, it lies in [0, 1]: the kernel's clamp is the identity on it.
-/
import proofs.«428200_j21517786153438_3_alg».proof.Proof.Spec
import Idealize.ShloMosaic.Lib.IdealHost
import Mathlib.Analysis.SpecialFunctions.Exp
import Mathlib.Logic.Equiv.Fin.Basic
import Mathlib.Algebra.BigOperators.Fin

noncomputable section

namespace Cert.Spec

open Idealize.ShloMosaic Idealize.ShloMosaic.ValueIdx

/-! ## Coercion of finite sums and maxima -/

/-- The coercion of a finite sum of reals is the sum of the coercions. -/
private theorem coe_sum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- The coercion of the larger of two reals is the larger of the coercions. -/
private theorem coe_max (a b : ℝ) : ((max a b : ℝ) : EReal) = max (a : EReal) (b : EReal) :=
  EReal.coe_strictMono.monotone.map_max

/-- A running maximum from `⊥` over real entries is `⊥` or a real. -/
private theorem fold_max_bot_or_real {ι : Type} (g : ι → ℝ) (s : Finset ι) :
    s.fold max ⊥ (fun i => (g i : EReal)) = ⊥ ∨ ∃ a : ℝ, s.fold max ⊥ (fun i => (g i : EReal)) = (a : EReal) := by
  classical
  induction s using Finset.induction_on with
  | empty => left; simp
  | insert i s hi ih =>
    right
    rw [Finset.fold_insert hi]
    rcases ih with h | ⟨a, h⟩
    · rw [h]; exact ⟨g i, max_bot_right _⟩
    · rw [h]; exact ⟨max (g i) a, (coe_max _ _).symm⟩

/-- Over a nonempty index set it is a real. -/
private theorem fold_max_real {ι : Type} (g : ι → ℝ) (s : Finset ι) (hs : s.Nonempty) :
    ∃ a : ℝ, s.fold max ⊥ (fun i => (g i : EReal)) = (a : EReal) := by
  classical
  obtain ⟨i, hi⟩ := hs
  rw [← Finset.insert_erase hi, Finset.fold_insert (Finset.notMem_erase i s)]
  rcases fold_max_bot_or_real g (s.erase i) with h | ⟨a, h⟩
  · rw [h]; exact ⟨g i, max_bot_right _⟩
  · rw [h]; exact ⟨max (g i) a, (coe_max _ _).symm⟩

/-! ## The real sums -/

/-- The denominator over the first `n` tiles at shift `a`. -/
private def den (r : Fin 4096 → ℝ) (n : ℕ) (a : ℝ) : ℝ :=
  ∑ k ∈ Finset.range n, ∑ s' : Fin 1024, Real.exp (r (sIdx k s') - a)

/-- The numerator over the first `n` tiles at shift `a`, with weights `w`. -/
private def num (r w : Fin 4096 → ℝ) (n : ℕ) (a : ℝ) : ℝ :=
  ∑ k ∈ Finset.range n, ∑ s' : Fin 1024, Real.exp (r (sIdx k s') - a) * w (sIdx k s')

/-- Moving the shift from `a` to `a'` multiplies every term by `exp (a - a')`. -/
private theorem den_shift (r : Fin 4096 → ℝ) (n : ℕ) (a a' : ℝ) :
    Real.exp (a - a') * den r n a = den r n a' := by
  unfold den
  rw [Finset.mul_sum]
  refine Finset.sum_congr rfl fun k _ => ?_
  rw [Finset.mul_sum]
  refine Finset.sum_congr rfl fun s' _ => ?_
  rw [← Real.exp_add]; congr 1; ring

private theorem num_shift (r w : Fin 4096 → ℝ) (n : ℕ) (a a' : ℝ) :
    Real.exp (a - a') * num r w n a = num r w n a' := by
  unfold num
  rw [Finset.mul_sum]
  refine Finset.sum_congr rfl fun k _ => ?_
  rw [Finset.mul_sum]
  refine Finset.sum_congr rfl fun s' _ => ?_
  rw [← mul_assoc, ← Real.exp_add]; congr 2; ring

/-- Four tiles of 1024 states are all 4096 states. -/
private theorem sum_tiles (g : Fin 4096 → ℝ) :
    ∑ k ∈ Finset.range 4, ∑ s' : Fin 1024, g (sIdx k s') = ∑ s : Fin 4096, g s := by
  rw [Finset.sum_range (fun k => ∑ s' : Fin 1024, g (sIdx k s')), ← Fintype.sum_prod_type']
  refine Fintype.sum_equiv (finProdFinEquiv.trans (finCongr (by norm_num))) _ _ fun p => ?_
  congr 1
  apply Fin.ext
  have h1 := p.1.isLt
  have h2 := p.2.isLt
  simp only [sIdx, Equiv.trans_apply, finCongr_apply, Fin.coe_cast, finProdFinEquiv_apply_val]
  omega

/-- The softmax ratio over all states at shift `a`. -/
private def ratio (r w : Fin 4096 → ℝ) (a : ℝ) : ℝ :=
  (∑ s : Fin 4096, Real.exp (r s - a) * w s) / (∑ s : Fin 4096, Real.exp (r s - a))

private theorem den_pos (r : Fin 4096 → ℝ) (a : ℝ) : 0 < ∑ s : Fin 4096, Real.exp (r s - a) :=
  Finset.sum_pos (fun _ _ => Real.exp_pos _) Finset.univ_nonempty

/-- The ratio does not depend on the shift. -/
private theorem ratio_shift (r w : Fin 4096 → ℝ) (a a' : ℝ) : ratio r w a = ratio r w a' := by
  unfold ratio
  have hn : ∑ s : Fin 4096, Real.exp (r s - a') * w s = Real.exp (a - a') * ∑ s : Fin 4096, Real.exp (r s - a) * w s := by
    rw [Finset.mul_sum]
    refine Finset.sum_congr rfl fun s _ => ?_
    rw [← mul_assoc, ← Real.exp_add]; congr 2; ring
  have hd : ∑ s : Fin 4096, Real.exp (r s - a') = Real.exp (a - a') * ∑ s : Fin 4096, Real.exp (r s - a) := by
    rw [Finset.mul_sum]
    refine Finset.sum_congr rfl fun s _ => ?_
    rw [← Real.exp_add]; congr 1; ring
  rw [hn, hd, mul_div_mul_left _ _ (Real.exp_pos _).ne']

/-- With weights in [0, 1] the ratio lies in [0, 1]. -/
private theorem ratio_bounds (r w : Fin 4096 → ℝ) (a : ℝ) (hw : ∀ s, 0 ≤ w s ∧ w s ≤ 1) :
    0 ≤ ratio r w a ∧ ratio r w a ≤ 1 := by
  unfold ratio
  have hd := den_pos r a
  constructor
  · exact div_nonneg (Finset.sum_nonneg fun s _ => mul_nonneg (Real.exp_pos _).le (hw s).1) hd.le
  · rw [div_le_one hd]
    refine Finset.sum_le_sum fun s _ => ?_
    exact mul_le_of_le_one_right (Real.exp_pos _).le (hw s).2

/-- The quotient of the sums over four tiles is the ratio. -/
private theorem num_div_den (r w : Fin 4096 → ℝ) (a : ℝ) : num r w 4 a / den r 4 a = ratio r w a := by
  unfold num den ratio
  rw [sum_tiles (fun s => Real.exp (r s - a) * w s), sum_tiles (fun s => Real.exp (r s - a))]

/-! ## One update on real data -/

/-- The first update, from the reset state: the rescaling factor is `exp ⊥ = 0` and the old sums are zero. -/
private theorem step_reset (c : Fin 1024 → ℝ) (W : Fin 1024 → Fin 64 → ℝ) :
    ∃ a' : ℝ, (step (fun s' => (c s' : EReal)) (fun s' j => (W s' j : EReal)) reset).m = (a' : EReal) ∧
      (step (fun s' => (c s' : EReal)) (fun s' j => (W s' j : EReal)) reset).l
        = ((∑ s' : Fin 1024, Real.exp (c s' - a') : ℝ) : EReal) ∧
      ∀ j, (step (fun s' => (c s' : EReal)) (fun s' j => (W s' j : EReal)) reset).acc j
        = ((∑ s' : Fin 1024, Real.exp (c s' - a') * W s' j : ℝ) : EReal) := by
  obtain ⟨t, ht⟩ := fold_max_real c Finset.univ Finset.univ_nonempty
  refine ⟨t, ?_, ?_, fun j => ?_⟩
  · simp only [step, reset, ht, max_bot_left]
  · simp only [step, reset, ht, max_bot_left, EReal.bot_sub, Ideal.exp_bot, mul_zero, zero_add,
      ← EReal.coe_sub, Ideal.exp_coe, ← coe_sum]
  · simp only [step, reset, ht, max_bot_left, EReal.bot_sub, Ideal.exp_bot, mul_zero, zero_add,
      ← EReal.coe_sub, Ideal.exp_coe, ← EReal.coe_mul, ← coe_sum]

/-- An update from a state with real maximum `a` and real sums `L`, `A j`. -/
private theorem step_real (c : Fin 1024 → ℝ) (W : Fin 1024 → Fin 64 → ℝ) (st : St) (a L : ℝ) (A : Fin 64 → ℝ)
    (hm : st.m = (a : EReal)) (hl : st.l = (L : EReal)) (hacc : ∀ j, st.acc j = (A j : EReal)) :
    ∃ a' : ℝ, (step (fun s' => (c s' : EReal)) (fun s' j => (W s' j : EReal)) st).m = (a' : EReal) ∧
      (step (fun s' => (c s' : EReal)) (fun s' j => (W s' j : EReal)) st).l
        = ((Real.exp (a - a') * L + ∑ s' : Fin 1024, Real.exp (c s' - a') : ℝ) : EReal) ∧
      ∀ j, (step (fun s' => (c s' : EReal)) (fun s' j => (W s' j : EReal)) st).acc j
        = ((Real.exp (a - a') * A j + ∑ s' : Fin 1024, Real.exp (c s' - a') * W s' j : ℝ) : EReal) := by
  obtain ⟨t, ht⟩ := fold_max_real c Finset.univ Finset.univ_nonempty
  refine ⟨max a t, ?_, ?_, fun j => ?_⟩
  · simp only [step, hm, ht, ← coe_max]
  · simp only [step, hm, hl, ht, ← coe_max, ← EReal.coe_sub, Ideal.exp_coe, ← EReal.coe_mul, ← coe_sum,
      ← EReal.coe_add]
  · simp only [step, hm, hacc, ht, ← coe_max, ← EReal.coe_sub, Ideal.exp_coe, ← EReal.coe_mul, ← coe_sum,
      ← EReal.coe_add]

/-! ## The scores and weights as reals -/

variable (f : ArrB) (S : ArrS)

/-- The real score of row `b` against state `s`. -/
private def rs (b : Fin 8192) (s : Fin 4096) : ℝ :=
  ∑ j : Fin 64, (f (ix2 b j)).toReal * (S (ix2 s j)).toReal

/-- The real weight: 1 at a positive entry of `S`, else 0. -/
private def wr (s : Fin 4096) (j : Fin 64) : ℝ := if 0 < S (ix2 s j) then 1 else 0

private theorem score_eq (hf : Finite f) (hS : Finite S) (b : Fin 8192) (s : Fin 4096) :
    score f S b s = (rs f S b s : EReal) := by
  unfold score rs
  rw [coe_sum]
  refine Finset.sum_congr rfl fun j _ => ?_
  obtain ⟨x, hx⟩ := hf (ix2 b j)
  obtain ⟨y, hy⟩ := hS (ix2 s j)
  rw [hx, hy, EReal.toReal_coe, EReal.toReal_coe, EReal.coe_mul]

private theorem ind_eq (s : Fin 4096) (j : Fin 64) : ind (S (ix2 s j)) = (wr S s j : EReal) := by
  unfold ind wr
  split_ifs <;> simp

private theorem wr_bounds (s : Fin 4096) (j : Fin 64) : 0 ≤ wr S s j ∧ wr S s j ≤ 1 := by
  unfold wr
  split_ifs <;> norm_num

private theorem tileSc_eq (hf : Finite f) (hS : Finite S) (b : Fin 8192) (k : ℕ) :
    tileSc f S b k = fun s' => ((rs f S b (sIdx k s') : ℝ) : EReal) := by
  funext s'
  exact score_eq f S hf hS b (sIdx k s')

private theorem tileW_eq (k : ℕ) :
    tileW S k = fun s' j => ((wr S (sIdx k s') j : ℝ) : EReal) := by
  funext s' j
  exact ind_eq S (sIdx k s') j

/-! ## The state after tiles 0 … k in closed form -/

private theorem stAfter_closed (hf : Finite f) (hS : Finite S) (b : Fin 8192) (k : ℕ) :
    ∃ a : ℝ, (stAfter f S b k).m = (a : EReal) ∧
      (stAfter f S b k).l = (den (rs f S b) (k + 1) a : EReal) ∧
      ∀ j, (stAfter f S b k).acc j = (num (rs f S b) (fun s => wr S s j) (k + 1) a : EReal) := by
  induction k with
  | zero =>
    obtain ⟨a, hm, hl, hacc⟩ := step_reset (fun s' => rs f S b (sIdx 0 s')) (fun s' j => wr S (sIdx 0 s') j)
    refine ⟨a, ?_, ?_, fun j => ?_⟩
    · rw [stAfter, tileSc_eq f S hf hS, tileW_eq]; exact hm
    · rw [stAfter, tileSc_eq f S hf hS, tileW_eq, hl, den, Finset.sum_range_one]
    · rw [stAfter, tileSc_eq f S hf hS, tileW_eq, hacc j, num, Finset.sum_range_one]
  | succ k ih =>
    obtain ⟨a, hm, hl, hacc⟩ := ih
    obtain ⟨a', hm', hl', hacc'⟩ := step_real (fun s' => rs f S b (sIdx (k + 1) s'))
      (fun s' j => wr S (sIdx (k + 1) s') j) (stAfter f S b k) a _ _ hm hl hacc
    refine ⟨a', ?_, ?_, fun j => ?_⟩
    · rw [stAfter, tileSc_eq f S hf hS, tileW_eq]; exact hm'
    · rw [stAfter, tileSc_eq f S hf hS, tileW_eq, hl', den_shift]
      conv_rhs => rw [den, Finset.sum_range_succ]
      rfl
    · rw [stAfter, tileSc_eq f S hf hS, tileW_eq, hacc' j, num_shift]
      conv_rhs => rw [num, Finset.sum_range_succ]
      rfl

/-! ## The two marginals as the ratio -/

private theorem div_real (x y : ℝ) (hy : y ≠ 0) : Ideal.div (x : EReal) (y : EReal) = ((x / y : ℝ) : EReal) := by
  rw [Ideal.div_coe hy, ← EReal.coe_mul, mul_one_div]

private theorem pmR_ratio (hf : Finite f) (hS : Finite S) (b : Fin 8192) (j : Fin 64) :
    ∃ a : ℝ, pmR f S b j = (ratio (rs f S b) (fun s => wr S s j) a : EReal) := by
  obtain ⟨a, ha⟩ := fold_max_real (rs f S b) Finset.univ Finset.univ_nonempty
  have hmx : mxR f S b = (a : EReal) := by
    unfold mxR
    rw [show (fun s : Fin 4096 => score f S b s) = fun s => ((rs f S b s : ℝ) : EReal) from
      funext fun s => score_eq f S hf hS b s]
    exact ha
  have hexp : ∀ s, expR f S b s = ((Real.exp (rs f S b s - a) : ℝ) : EReal) := fun s => by
    rw [expR, hmx, score_eq f S hf hS, ← EReal.coe_sub, Ideal.exp_coe]
  refine ⟨a, ?_⟩
  unfold pmR
  simp only [hexp, ind_eq, Ideal.ofBits_zero_f32, zero_add, ← EReal.coe_mul, ← coe_sum]
  have hnum : ∑ s : Fin 4096, wr S s j * Real.exp (rs f S b s - a)
      = ∑ s : Fin 4096, Real.exp (rs f S b s - a) * wr S s j :=
    Finset.sum_congr rfl fun s _ => mul_comm _ _
  rw [div_real _ _ (den_pos _ _).ne', hnum]
  rfl

private theorem pmK_ratio (hf : Finite f) (hS : Finite S) (b : Fin 8192) (j : Fin 64) :
    ∃ a : ℝ, pmK f S b j = (ratio (rs f S b) (fun s => wr S s j) a : EReal) := by
  obtain ⟨a, -, hl, hacc⟩ := stAfter_closed f S hf hS b 3
  refine ⟨a, ?_⟩
  have hd : den (rs f S b) (3 + 1) a ≠ 0 := by
    have := den_pos (rs f S b) a
    rw [← sum_tiles (fun s => Real.exp (rs f S b s - a))] at this
    exact this.ne'
  have hb := ratio_bounds (rs f S b) (fun s => wr S s j) a (fun s => wr_bounds S s j)
  have hz : zero32 = 0 := Ideal.ofBits_zero_f32
  have ho : one32 = 1 := Ideal.ofBits_one_f32
  unfold pmK
  rw [hl, hacc j, div_real _ _ hd, num_div_den, hz, ho,
    max_eq_right (by exact_mod_cast hb.1), min_eq_right (by exact_mod_cast hb.2)]

/-! ## The two theorems -/

/-- The reference's marginal is a real number between 0 and 1. -/
theorem pmR_real (hf : Finite f) (hS : Finite S) (b : Fin 8192) (j : Fin 64) :
    ∃ x : ℝ, 0 ≤ x ∧ x ≤ 1 ∧ pmR f S b j = (x : EReal) := by
  obtain ⟨a, ha⟩ := pmR_ratio f S hf hS b j
  have hb := ratio_bounds (rs f S b) (fun s => wr S s j) a (fun s => wr_bounds S s j)
  exact ⟨_, hb.1, hb.2, ha⟩

/-- The marginals agree: the softmax ratio does not depend on the shift, and it lies in [0, 1]. -/
theorem pmK_eq_pmR (hf : Finite f) (hS : Finite S) (b : Fin 8192) (j : Fin 64) : pmK f S b j = pmR f S b j := by
  obtain ⟨a, ha⟩ := pmK_ratio f S hf hS b j
  obtain ⟨a', ha'⟩ := pmR_ratio f S hf hS b j
  rw [ha, ha', ratio_shift _ _ a a']

end Cert.Spec

end
-- ==== Proof.SpecLoss.lean ====
/-
  The losses agree. Every cross-entropy term is a real number: the marginal is a real in [0, 1], both logarithms
  are clamped below at -100 and are at most 0, the targets and the mask are real. The kernel's `0 - x` is the
  reference's `-x`. The kernel sums each row tile's terms into row 0 of an eight-row tile (rows 1 … 7 zero),
  sums the whole [4, 8, 64] array and divides by 524288; the reference sums each row over the 64 labels, divides
  by 64, sums the 8192 rows and divides by 8192. Over the reals these are the same sum and the same divisor.
-/
import proofs.«428200_j21517786153438_3_alg».proof.Proof.Spec
import proofs.«428200_j21517786153438_3_alg».proof.Proof.SpecSoftmax
import Idealize.ShloMosaic.PureOps.Ideal.Laws
import Mathlib.Data.EReal.Basic
import Mathlib.Data.EReal.Operations
import Mathlib.Algebra.BigOperators.Fin
import Mathlib.Tactic.NormNum
import Mathlib.Tactic.Ring

noncomputable section

namespace Cert.Spec

open Idealize.ShloMosaic Idealize.ShloMosaic.ValueIdx

/-! ## The words are the reals they spell -/

private theorem one32_eq : one32 = ((1 : ℝ) : EReal) := by
  simp [one32, Ideal.ofBits, Ideal.ieee, -EReal.coe_mul]; norm_num

private theorem floor32_eq : floor32 = ((-100 : ℝ) : EReal) := by
  simp [floor32, Ideal.ofBits, Ideal.ieee, -EReal.coe_mul]; norm_num

private theorem c64_eq : c64 = ((64 : ℝ) : EReal) := by
  simp [c64, Ideal.ofBits, Ideal.ieee, -EReal.coe_mul]; norm_num

private theorem c8192_eq : c8192 = ((8192 : ℝ) : EReal) := by
  simp [c8192, Ideal.ofBits, Ideal.ieee, -EReal.coe_mul]; norm_num

private theorem c524288_eq : c524288 = ((524288 : ℝ) : EReal) := by
  simp [c524288, Ideal.ofBits, Ideal.ieee, -EReal.coe_mul]; norm_num

/-! ## Bookkeeping in the extended reals -/

/-- The maximum of two reals, taken in the extended reals, is their real maximum. -/
private theorem max_coe (a b : ℝ) : max (a : EReal) (b : EReal) = ((max a b : ℝ) : EReal) :=
  (EReal.coe_strictMono.monotone.map_max).symm

/-- A finite sum of reals, taken in the extended reals, is their real sum. -/
private theorem coe_sum {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, EReal.coe_add, ih]

/-! ## The sums' index sets -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (F : (⟨3, ![n0, n1, n2]⟩ : Shape).Idx → M) :
    ∑ i, F i = ∑ a : Fin n0, ∑ b : Fin n1, ∑ c : Fin n2, F (ix3 a b c) := by
  rw [← Equiv.sum_comp (idxEquiv3 (n0 := n0) (n1 := n1) (n2 := n2)).symm F, Fintype.sum_prod_type]
  refine Finset.sum_congr rfl fun a _ => ?_
  rw [Fintype.sum_prod_type]
  rfl

/-- The 8192 rows are four tiles of 2048: row `r` of tile `i` is row `2048 i + r`. -/
private def rowEquiv : Fin 4 × Fin 2048 ≃ Fin 8192 where
  toFun p := bIdx p.1.val p.2
  invFun b := (⟨b.val / 2048, by have := b.isLt; omega⟩, ⟨b.val % 2048, by omega⟩)
  left_inv := by
    rintro ⟨i, r⟩
    have := i.isLt
    have := r.isLt
    ext <;> simp [bIdx] <;> omega
  right_inv := by
    intro b
    have := b.isLt
    ext
    simp [bIdx]
    omega

/-- A sum over the rows is the sum over the tiles of the sums over each tile's rows. -/
private theorem sum_rows {M : Type*} [AddCommMonoid M] (g : Fin 8192 → M) :
    ∑ i : Fin 4, ∑ r : Fin 2048, g (bIdx i.val r) = ∑ b : Fin 8192, g b := by
  rw [← Equiv.sum_comp rowEquiv g, Fintype.sum_prod_type]
  rfl

/-! ## One cross-entropy term -/

/-- The kernel's `0 - x` is the reference's `-x`. -/
private theorem bceK_eq_bceR (p yv mv : EReal) : bceK p yv mv = bceR p yv mv := by
  simp only [bceK, bceR, zero32, Ideal.ofBits_zero_f32, zero_sub]

/-- The logarithm of a real, clamped below at -100, is a real: the logarithm itself is `⊥` or a real. -/
private theorem clog_real (p : ℝ) : ∃ x : ℝ, max (Ideal.log (p : EReal)) floor32 = (x : EReal) := by
  rw [floor32_eq, Ideal.log_coe]
  by_cases h : p ≤ 0
  · exact ⟨-100, by rw [if_pos h, max_eq_right bot_le]⟩
  · exact ⟨max (Real.log p) (-100), by rw [if_neg h, max_coe]⟩

/-- A cross-entropy term of real marginal, target and mask is a real. -/
private theorem bceR_real (p yv mv : ℝ) : ∃ x : ℝ, bceR (p : EReal) (yv : EReal) (mv : EReal) = (x : EReal) := by
  obtain ⟨a, ha⟩ := clog_real p
  obtain ⟨c, hc⟩ := clog_real (1 - p)
  have h1 : Ideal.log1p (-(p : EReal)) = Ideal.log ((1 - p : ℝ) : EReal) := by
    rw [Ideal.log1p, EReal.coe_sub, EReal.coe_one, sub_eq_add_neg]
  refine ⟨-(yv * a + (1 - yv) * c) * mv, ?_⟩
  rw [bceR, h1, ha, hc, one32_eq]
  norm_cast

variable (f y mk : ArrB) (S : ArrS)

/-- The losses agree: finitely many finite terms, divided by 524288 at once or by 64 and then by 8192. -/
theorem lossK_eq_lossR (hf : Finite f) (hy : Finite y) (hm : Finite mk) (hS : Finite S) :
    lossK f y mk S = lossR f y mk S := by
  -- every term is a real number β b j
  have hβ : ∀ (b : Fin 8192) (j : Fin 64), ∃ x : ℝ,
      bceR (pmR f S b j) (y (ix2 b j)) (mk (ix2 b j)) = (x : EReal) := by
    intro b j
    obtain ⟨p, -, -, hp⟩ := pmR_real f S hf hS b j
    obtain ⟨yv, hyv⟩ := hy (ix2 b j)
    obtain ⟨mv, hmv⟩ := hm (ix2 b j)
    rw [hp, hyv, hmv]
    exact bceR_real p yv mv
  choose β hβ using hβ
  -- the reference's loss, in the reals
  have hR : lossR f y mk S
      = (((∑ b : Fin 8192, (∑ j : Fin 64, β b j) * (1 / 64)) * (1 / 8192) : ℝ) : EReal) := by
    unfold lossR
    simp only [hβ, coe_sum, Ideal.ofBits_zero_f32, zero_add, c64_eq, c8192_eq,
      Ideal.div_coe (by norm_num : (64 : ℝ) ≠ 0), Ideal.div_coe (by norm_num : (8192 : ℝ) ≠ 0), ← EReal.coe_mul]
  -- one entry of the kernel's array of partial sums, in the reals
  have hpart : ∀ (a : Fin 4) (c : Fin 8) (d : Fin 64), partK f y mk S (ix3 a c d)
      = (((∑ r : Fin 2048, β (bIdx a.val r) d) * (if c.val = 0 then 1 else 0) : ℝ) : EReal) := by
    intro a c d
    show (∑ r : Fin 2048, bceK (pmK f S (bIdx a.val r) d) (y (ix2 (bIdx a.val r) d)) (mk (ix2 (bIdx a.val r) d)))
        * (if c.val = 0 then 1 else 0) = _
    simp only [bceK_eq_bceR, pmK_eq_pmR f S hf hS, hβ, coe_sum]
    split_ifs <;> simp
  -- the kernel's loss, in the reals
  have hK : lossK f y mk S
      = (((∑ a : Fin 4, ∑ c : Fin 8, ∑ d : Fin 64,
            (∑ r : Fin 2048, β (bIdx a.val r) d) * (if c.val = 0 then 1 else 0)) * (1 / 524288) : ℝ) : EReal) := by
    unfold lossK
    rw [sum_idx3]
    simp only [hpart, coe_sum, Ideal.ofBits_zero_f32, zero_add, c524288_eq,
      Ideal.div_coe (by norm_num : (524288 : ℝ) ≠ 0), ← EReal.coe_mul]
  rw [hK, hR]
  congr 1
  -- only row 0 of each eight-row tile is nonzero
  have h8 : ∀ a : Fin 4, ∑ c : Fin 8, ∑ d : Fin 64,
      (∑ r : Fin 2048, β (bIdx a.val r) d) * (if c.val = 0 then (1 : ℝ) else 0)
        = ∑ r : Fin 2048, ∑ d : Fin 64, β (bIdx a.val r) d := by
    intro a
    rw [Fin.sum_univ_eight, Finset.sum_comm]
    simp
  simp only [h8]
  rw [sum_rows (fun b => ∑ d : Fin 64, β b d), ← Finset.sum_mul]
  ring

end Cert.Spec

end
-- ==== Proof.RefValue.lean ====
/-
  The reference's two results, read index by index: its marginal at (b, j) is `pmR`, its loss is `lossR`.
  Each of its operations is read at an index by the generated module; the one it leaves — the maximum over the
  states — is a fold of `max` from -∞ over the reduced axis.
-/
import proofs.«428200_j21517786153438_3_alg».proof.Proof.Gen.ReferenceIdeal.Read
import proofs.«428200_j21517786153438_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

section Stages

variable (x0 x1 x2 : (⟨S8192x64, .f32⟩ : BufTy).Contents (Elt Ideal)) (x3 : (⟨S4096x64, .f32⟩ : BufTy).Contents (Elt Ideal))

/-! ## The scores and their maximum -/

/-- The contraction of the state matrix with the transposed logits, at (s, b), is the score of row `b` against
    state `s`: the same 64 products, each with its factors exchanged. -/
private theorem v1_at (s : Fin 4096) (b : Fin 8192) :
    val_main_v1 (F := Ideal) x0 x3 (ix2 s b) = Cert.Spec.score x0 x3 b s := by
  rw [val_main_v1_apply]
  unfold Cert.Spec.score
  refine Finset.sum_congr rfl fun k _ => ?_
  rw [val_main_v0_apply]
  have e1 : lidx_main_v1 (ix2 s b) k = ix2 s k :=
    funext fun a => Fin.ext (by match a with | ⟨0, _⟩ => rfl | ⟨1, _⟩ => rfl)
  have e2 : idx_main_v0 (ridx_main_v1 (ix2 s b) k) = ix2 b k :=
    funext fun a => Fin.ext (by match a with | ⟨0, _⟩ => rfl | ⟨1, _⟩ => rfl)
  rw [e1, e2]
  exact mul_comm _ _

/-- The row index `b` with the state coordinate `k` put back on the reduced axis is (k, b). -/
private theorem lift_v2 (h : S4096x8192.Reduces [0] S8192) (b : Fin 8192) (k : Fin (S4096x8192.size 0)) :
    h.lift (ix1 b) k = ix2 (⟨k.val, k.isLt⟩ : Fin 4096) b := by
  funext c; apply Fin.ext
  fin_cases c <;> rfl

/-- The word of -∞ denotes the bottom element. -/
private theorem negInf_eq_bot : Ideal.ofBits .f32 0xFF800000#32 = (⊥ : EReal) := by
  simp [Ideal.ofBits, Ideal.ieee]

/-- The maximum over the states: a fold of `max` from -∞ over the reduced axis. -/
private theorem v2_at (b : Fin 8192) :
    val_main_v2 (F := Ideal) x0 x3 (ix1 b) = Cert.Spec.mxR x0 x3 b := by
  unfold val_main_v2
  have h : S4096x8192.Reduces [0] S8192 := by decide
  rw [Host.reduce_eq_fold_single FloatOps.maximumf _ _ reducesTo_S4096x8192_S8192_d0 h h_S_]
  have hf : (val_main_v1 (F := Ideal) x0 x3 ∘ h.lift (ix1 b))
      = fun k : Fin (S4096x8192.size 0) => Cert.Spec.score x0 x3 b (⟨k.val, k.isLt⟩ : Fin 4096) :=
    funext fun k => by
      show val_main_v1 (F := Ideal) x0 x3 (h.lift (ix1 b) k) = _
      rw [lift_v2 h b k, v1_at]
  rw [hf, val_main_cst_apply, Ideal.ofBits_def, negInf_eq_bot]
  rfl

/-! ## The exponentials, their sum, and the indicator -/

/-- The exponential of the shifted score. -/
private theorem v6_at (s : Fin 4096) (b : Fin 8192) :
    val_main_v6 (F := Ideal) x0 x3 (ix2 s b) = Cert.Spec.expR x0 x3 b s := by
  rw [val_main_v6_apply, val_main_v5_apply, val_main_v4_apply, val_main_v3_apply]
  have e : idx_main_v3 (idx_main_v4 (ix2 s b)) = ix1 b :=
    funext fun a => Fin.ext (by match a with | ⟨0, _⟩ => rfl)
  rw [e, v1_at, v2_at]
  simp only [Ideal.hostUnary_exp_def, Ideal.subf_def]
  rfl

/-- The denominator: the zero word plus the sum of the exponentials over the states. -/
private theorem v7_at (b : Fin 8192) :
    val_main_v7 (F := Ideal) x0 x3 (ix1 b) = Cert.Spec.zero32 + ∑ s : Fin 4096, Cert.Spec.expR x0 x3 b s := by
  rw [val_main_v7_apply, val_main_cst_0_apply, Ideal.ofBits_def]
  refine congrArg (_ + ·) (Finset.sum_congr rfl fun k _ => ?_)
  have e : idx_main_v7 (ix1 b) k = ix2 k b :=
    funext fun a => Fin.ext (by match a with | ⟨0, _⟩ => rfl | ⟨1, _⟩ => rfl)
  rw [e, v6_at]

/-- The comparison with zero, converted to a float, is the indicator of a positive entry. -/
private theorem v10_at (s : Fin 4096) (j : Fin 64) :
    val_main_v10 (F := Ideal) x3 (ix2 s j) = Cert.Spec.ind (x3 (ix2 s j)) := by
  rw [val_main_v10_apply, val_main_v9_apply, val_main_v8_apply, val_main_cst_1_apply]
  simp only [Ideal.cmpf_def, Ideal.ofBits_def, Ideal.ofBits_zero_f32]
  unfold Cert.Spec.ind Ideal.cmp
  show (((BitVec.ofBool (decide ((0 : EReal) < x3 (ix2 s j)))).toNat : ℝ) : EReal) = _
  by_cases h : (0 : EReal) < x3 (ix2 s j)
  · simp [h]
  · simp [h]

/-- The numerator: the indicators contracted with the exponentials over the states. -/
private theorem v12_at (j : Fin 64) (b : Fin 8192) :
    val_main_v12 (F := Ideal) x0 x3 (ix2 j b)
      = ∑ s : Fin 4096, Cert.Spec.ind (x3 (ix2 s j)) * Cert.Spec.expR x0 x3 b s := by
  rw [val_main_v12_apply]
  refine Finset.sum_congr rfl fun k _ => ?_
  rw [val_main_v11_apply]
  have e1 : idx_main_v11 (lidx_main_v12 (ix2 j b) k) = ix2 k j :=
    funext fun a => Fin.ext (by match a with | ⟨0, _⟩ => rfl | ⟨1, _⟩ => rfl)
  have e2 : ridx_main_v12 (ix2 j b) k = ix2 k b :=
    funext fun a => Fin.ext (by match a with | ⟨0, _⟩ => rfl | ⟨1, _⟩ => rfl)
  rw [e1, e2, v10_at, v6_at]

/-! ## The marginal -/

/-- The marginal at (b, j). -/
private theorem v16_at (b : Fin 8192) (j : Fin 64) :
    val_main_v16 (F := Ideal) x0 x3 (ix2 b j) = Cert.Spec.pmR x0 x3 b j := by
  rw [val_main_v16_apply, val_main_v15_apply, val_main_v14_apply, val_main_v13_apply]
  have e1 : idx_main_v16 (ix2 b j) = ix2 j b :=
    funext fun a => Fin.ext (by match a with | ⟨0, _⟩ => rfl | ⟨1, _⟩ => rfl)
  have e2 : idx_main_v13 (idx_main_v14 (ix2 j b)) = ix1 b :=
    funext fun a => Fin.ext (by match a with | ⟨0, _⟩ => rfl)
  rw [e1, e2, v12_at, v7_at, Ideal.hostDivf_def]
  rfl

/-! ## The loss -/

/-- The cross-entropy term at (b, j). -/
private theorem v30_at (b : Fin 8192) (j : Fin 64) :
    val_main_v30 (F := Ideal) x0 x1 x2 x3 (ix2 b j)
      = Cert.Spec.bceR (Cert.Spec.pmR x0 x3 b j) (x1 (ix2 b j)) (x2 (ix2 b j)) := by
  rw [val_main_v30_apply, val_main_v29_apply, val_main_v28_apply, val_main_v24_apply, val_main_v27_apply,
    val_main_v19_apply, val_main_v17_apply, val_main_v18_apply, val_main_cst_2_apply,
    val_main_v26_apply, val_main_v25_apply, val_main_cst_4_apply,
    val_main_v23_apply, val_main_v21_apply, val_main_v20_apply, val_main_v22_apply, val_main_cst_3_apply,
    v16_at]
  simp only [Ideal.hostUnary_log_def, Ideal.hostUnary_log1p_def, Ideal.hostNegf_def, Ideal.negf_def,
    Ideal.maximumf_def, Ideal.mulf_def, Ideal.addf_def, Ideal.subf_def, Ideal.ofBits_def]
  rfl

/-- A row's mean over the labels. -/
private theorem v33_at (b : Fin 8192) :
    val_main_v33 (F := Ideal) x0 x1 x2 x3 (ix1 b)
      = Ideal.div (Cert.Spec.zero32 + ∑ j : Fin 64,
          Cert.Spec.bceR (Cert.Spec.pmR x0 x3 b j) (x1 (ix2 b j)) (x2 (ix2 b j))) Cert.Spec.c64 := by
  rw [val_main_v33_apply, val_main_v31_apply, val_main_cst_5_apply, val_main_v32_apply, val_main_cst_6_apply,
    Ideal.hostDivf_def, Ideal.ofBits_def, Ideal.ofBits_def]
  refine congrArg (fun t => Ideal.div (_ + t) _) (Finset.sum_congr rfl fun k _ => ?_)
  have e : idx_main_v31 (ix1 b) k = ix2 b k :=
    funext fun a => Fin.ext (by match a with | ⟨0, _⟩ => rfl | ⟨1, _⟩ => rfl)
  rw [e, v30_at]

/-- A rank-1 index set is its one coordinate's range. -/
private def idxEquiv1 {n : Nat} : (⟨1, ![n]⟩ : Shape).Idx ≃ Fin n where
  toFun i := i 0
  invFun a := ix1 a
  left_inv i := (eq_ix1 i).symm
  right_inv _ := rfl

end Stages

/-! ## The two results -/

/-- The reference's marginal array is `pmR`. -/
theorem v16_eq (x0 : (⟨S8192x64, .f32⟩ : BufTy).Contents (Elt Ideal)) (x3 : (⟨S4096x64, .f32⟩ : BufTy).Contents (Elt Ideal)) :
    val_main_v16 (F := Ideal) x0 x3 = fun i => Cert.Spec.pmR x0 x3 (i 0) (i 1) := by
  funext i
  obtain ⟨b, j, rfl⟩ : ∃ (b : Fin 8192) (j : Fin 64), i = ix2 b j := ⟨i 0, i 1, eq_ix2 i⟩
  exact v16_at x0 x3 b j

/-- The reference's loss is `lossR`. -/
theorem v35_eq (x0 x1 x2 : (⟨S8192x64, .f32⟩ : BufTy).Contents (Elt Ideal)) (x3 : (⟨S4096x64, .f32⟩ : BufTy).Contents (Elt Ideal)) :
    val_main_v35 (F := Ideal) x0 x1 x2 x3 = fun _ => Cert.Spec.lossR x0 x1 x2 x3 := by
  funext i
  rw [val_main_v35_apply, val_main_v34_apply, val_main_cst_7_apply, val_main_cst_8_apply,
    Ideal.hostDivf_def, Ideal.ofBits_def, Ideal.ofBits_def]
  unfold Cert.Spec.lossR
  refine congrArg (fun t => Ideal.div (_ + t) _) ?_
  rw [← Equiv.sum_comp (idxEquiv1 (n := 8192)).symm]
  refine Finset.sum_congr rfl fun b _ => ?_
  exact v33_at x0 x1 x2 x3 b

end Cert.ReferenceIdeal.RefValue

end
-- ==== Proof.Finite.lean ====
/-
  What the precondition gives: `|x| < +∞` at every entry of each of the four arrays, so every entry is a real
  number (an extended real whose absolute value is below +∞ is neither infinity).
-/
import proofs.«428200_j21517786153438_3_alg».proof.Pre_finite_inputs
import proofs.«428200_j21517786153438_3_alg».proof.Proof.Spec
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

variable [Cert.Pre_finite_inputs.Facts]

/-- The rank-0 shape has exactly one index. -/
local instance subsingleton_scalar_idx : Subsingleton Cert.Pre_finite_inputs.S_.Idx :=
  ⟨fun a b => funext fun d => d.elim0⟩

/-- The f32 pattern `0x7F800000` (sign 0, exponent all ones, fraction 0) denotes `+∞`. -/
private theorem inf_bits : Ideal.ofBits .f32 0x7F800000#32 = (⊤ : EReal) := by
  simp [Ideal.ofBits, Ideal.ieee]

/-- An extended real with `max x (-x) < ⊤` is a real number: `⊤` gives `max ⊤ ⊥ = ⊤` and `⊥` gives
    `max ⊥ ⊤ = ⊤`, neither below `⊤`. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One array: if the `and` over all entries of `|a i| < +∞` is true, every entry of `a` is real. -/
private theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ix0 = 1#1) :
    Cert.Spec.Finite a := by
  intro i
  have hi := Host.reduce_andi_all _ _ hr hu ix0 e i
  simp only [cmpf, Host.absf, broadcastInDim, constant] at hi
  rw [Ideal.hostAbsf_def, Ideal.cmpf_def, Ideal.absf_def, Ideal.ofBits_def, inf_bits] at hi
  exact real_of_abs_lt_top _ hi

/-- Under the precondition every entry of every argument array is a real number. -/
theorem finite_of_fn (a0 a1 a2 : FVec Ideal Cert.Pre_finite_inputs.S8192x64 .f32)
    (a3 : FVec Ideal Cert.Pre_finite_inputs.S4096x64 .f32)
    (h : Cert.Pre_finite_inputs.fn (F := Ideal) a0 a1 a2 a3 = fun _ => 1#1) :
    Cert.Spec.Finite a0 ∧ Cert.Spec.Finite a1 ∧ Cert.Spec.Finite a2 ∧ Cert.Spec.Finite a3 := by
  -- the one entry of the rank-0 result; it is the `and` of the four all-reductions
  have h0 := congrFun h ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨finite_of_all a0 _ _ _ h0', finite_of_all a1 _ _ _ h1, finite_of_all a2 _ _ _ h2,
    finite_of_all a3 _ _ _ h3⟩

end Cert.FiniteInputs

end
-- ==== Proof.KDefs.lean ====
/-
  The kernel body's arithmetic, gathered per grid point: one point takes a row tile's block of logits `x0`
  ([2048, 64]), a state tile's block `x1` ([1024, 64]) and the three carried arrays — running maximum, running
  denominator, running numerators — and leaves the three arrays updated. `stepV` is that update written over the
  body's own stored values; `resetV` is what the first point of a row tile stores before it computes.
-/
import proofs.«428200_j21517786153438_3_alg».proof.Proof.Gen.KernelIdeal.Skeleton

noncomputable section

namespace Cert.KernelIdeal.KV

open Idealize.ShloMosaic Cert.KernelIdeal Cert.KernelIdeal.Gen

variable {F : FTy → Type} [FloatOps F]

/-- The three carried arrays: running maximum [2048, 1], running denominator [2048, 1], running numerators [2048, 64]. -/
abbrev VSt (F : FTy → Type) [FloatOps F] : Type := Vec F S2048x1 .f32 × Vec F S2048x1 .f32 × Vec F S2048x64 .f32

/-- What the first point of a row tile stores first: maximum -∞, denominator 0, numerators 0. -/
def resetV : VSt F := (k0_pay5, k0_pay6, k0_pay7)

/-- One grid point's update of the carried arrays from the point's two input blocks. -/
def stepV (x0 : Vec F S2048x64 .f32) (x1 : Vec F S1024x64 .f32) (st : VSt F) : VSt F :=
  (k0_pay2 (k0_pay9 x0 x1 st.1), k0_pay12 x0 x1 st.1 st.2.1, k0_pay1 (k0_pay10 x0 x1 st.1) (k0_pay13 x0 x1 x1 st.1) st.2.2)

end Cert.KernelIdeal.KV

end
-- ==== Proof.KSteps.lean ====
/-
  What each grid point leaves in the three carried arrays and in the two outputs, read off the body's stores.
  A point that is first of its row tile stores the reset values and then updates them; any other point updates
  what the point before left; so after every point the carried arrays are the update `stepV` of the point's two
  input blocks applied to the reset values (first point of a row tile) or to the previous point's arrays. The
  last point of a row tile also stores the clamped ratio of the updated numerators and denominator, and the
  tile's column sums of the cross-entropy terms.
-/
import proofs.«428200_j21517786153438_3_alg».proof.Proof.Gen.KernelIdeal.Frame
import proofs.«428200_j21517786153438_3_alg».proof.Proof.KDefs
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sA0 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond0_0 i) (hc1 : ¬cond0_1 i)
    (x0 : Vec F S2048x64 .f32) (x1 : Vec F S1024x64 .f32) (x2 : Vec F S2048x64 .f32) (x3 : Vec F S2048x64 .f32) :
    sout0_A_0 c i arg2 harg2 arg3 harg3 arg4 harg4 arg5 harg5 arg6 harg6 arg7 harg7 arg8 harg8 arg9 harg9 arg10 harg10 hc0 hc1 x0 x1 x2 x3 = (stepV x0 x1 resetV).1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  first
    | rw [View.canon_cons_unit_zero (S := S2048x1) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sA1 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond0_0 i) (hc1 : ¬cond0_1 i)
    (x0 : Vec F S2048x64 .f32) (x1 : Vec F S1024x64 .f32) (x2 : Vec F S2048x64 .f32) (x3 : Vec F S2048x64 .f32) :
    sout0_A_1 c i arg2 harg2 arg3 harg3 arg4 harg4 arg5 harg5 arg6 harg6 arg7 harg7 arg8 harg8 arg9 harg9 arg10 harg10 hc0 hc1 x0 x1 x2 x3 = (stepV x0 x1 resetV).2.1 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  first
    | rw [View.canon_cons_unit_zero (S := S2048x1) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sA2 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond0_0 i) (hc1 : ¬cond0_1 i)
    (x0 : Vec F S2048x64 .f32) (x1 : Vec F S1024x64 .f32) (x2 : Vec F S2048x64 .f32) (x3 : Vec F S2048x64 .f32) :
    sout0_A_2 c i arg2 harg2 arg3 harg3 arg4 harg4 arg5 harg5 arg6 harg6 arg7 harg7 arg8 harg8 arg9 harg9 arg10 harg10 hc0 hc1 x0 x1 x2 x3 = (stepV x0 x1 resetV).2.2 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  first
    | rw [View.canon_cons_unit_zero (S := S2048x64) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sB0 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : ¬cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    sout0_B_0 c i arg2 harg2 arg3 harg3 arg4 harg4 arg5 harg5 arg6 harg6 arg7 harg7 arg8 harg8 arg9 harg9 arg10 harg10 hc0 hc1 x0 x1 x2 x3 xs0 xs1 xs2 = (stepV x0 x1 (xs0, xs1, xs2)).1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  first
    | rw [View.canon_cons_unit_zero (S := S2048x1) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sB1 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : ¬cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    sout0_B_1 c i arg2 harg2 arg3 harg3 arg4 harg4 arg5 harg5 arg6 harg6 arg7 harg7 arg8 harg8 arg9 harg9 arg10 harg10 hc0 hc1 x0 x1 x2 x3 xs0 xs1 xs2 = (stepV x0 x1 (xs0, xs1, xs2)).2.1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  first
    | rw [View.canon_cons_unit_zero (S := S2048x1) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sB2 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : ¬cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    sout0_B_2 c i arg2 harg2 arg3 harg3 arg4 harg4 arg5 harg5 arg6 harg6 arg7 harg7 arg8 harg8 arg9 harg9 arg10 harg10 hc0 hc1 x0 x1 x2 x3 xs0 xs1 xs2 = (stepV x0 x1 (xs0, xs1, xs2)).2.2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  first
    | rw [View.canon_cons_unit_zero (S := S2048x64) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sC0 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    sout0_C_0 c i arg2 harg2 arg3 harg3 arg4 harg4 arg5 harg5 arg6 harg6 arg7 harg7 arg8 harg8 arg9 harg9 arg10 harg10 hc0 hc1 x0 x1 x2 x3 xs0 xs1 xs2 = (stepV x0 x1 (xs0, xs1, xs2)).1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  first
    | rw [View.canon_cons_unit_zero (S := S2048x1) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sC1 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    sout0_C_1 c i arg2 harg2 arg3 harg3 arg4 harg4 arg5 harg5 arg6 harg6 arg7 harg7 arg8 harg8 arg9 harg9 arg10 harg10 hc0 hc1 x0 x1 x2 x3 xs0 xs1 xs2 = (stepV x0 x1 (xs0, xs1, xs2)).2.1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  first
    | rw [View.canon_cons_unit_zero (S := S2048x1) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem sC2 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    sout0_C_2 c i arg2 harg2 arg3 harg3 arg4 harg4 arg5 harg5 arg6 harg6 arg7 harg7 arg8 harg8 arg9 harg9 arg10 harg10 hc0 hc1 x0 x1 x2 x3 xs0 xs1 xs2 = (stepV x0 x1 (xs0, xs1, xs2)).2.2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  first
    | rw [View.canon_cons_unit_zero (S := S2048x64) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem oC4 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    out0_C_4 c i arg2 harg2 arg3 harg3 arg4 harg4 arg5 harg5 arg6 harg6 arg7 harg7 arg8 harg8 arg9 harg9 arg10 harg10 hc0 hc1 x0 x1 x2 x3 xs0 xs1 xs2 = k0_pay3 (stepV x0 x1 (xs0, xs1, xs2)).2.2 (stepV x0 x1 (xs0, xs1, xs2)).2.1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  first
    | rw [View.canon_cons_unit_zero (S := S2048x64) hz2]
    | rw [View.canon_unit_zero hz2]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

theorem oC5 (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S1x8x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i)
    (x0 : Vec F S2048x64 .f32) (x1 : Vec F S1024x64 .f32) (x2 : Vec F S2048x64 .f32) (x3 : Vec F S2048x64 .f32) (xs0 : Vec F S2048x1 .f32) (xs1 : Vec F S2048x1 .f32) (xs2 : Vec F S2048x64 .f32) :
    out0_C_5 c i arg2 harg2 arg3 harg3 arg4 harg4 arg5 harg5 arg6 harg6 arg7 harg7 arg8 harg8 arg9 harg9 arg10 harg10 hc0 hc1 x0 x1 x2 x3 xs0 xs1 xs2 = k0_pay4 (stepV x0 x1 (xs0, xs1, xs2)).2.2 (stepV x0 x1 (xs0, xs1, xs2)).2.1 x2 x3 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  first
    | rw [View.canon_cons_unit_zero (S := S1x8x64) hz3]
    | rw [View.canon_unit_zero hz3]
  simp only [View.readAt_eq_ld, harg2.read_unread, harg3.read_unread, harg4.read_unread, harg5.read_unread,
    harg8.read_unread, harg9.read_unread, harg10.read_unread,
    View.ld_unit_zero (S := S2048x64) hz2, View.ld_unit_zero (S := S1024x64) hz2, View.ld_unit_zero (S := S2048x1) hz2,
    View.readCov_unit_zero (S := S2048x1) _ hz2, View.readCov_unit_zero (S := S2048x64) _ hz2]
  try rfl

/-! ## Point by point -/

variable (m : (ℓ : Loc nD τ sig) → Buf (Elt F) ℓ)

/-- The carried arrays after point `t`. -/
abbrev scr (c : Dev nD) (t : Fin cfg0.N) : VSt F := (outsAt0 m c t.val t.isLt).2.2

/-- The carried arrays the point before `t` left. -/
abbrev scrPrev (c : Dev nD) (t : Fin cfg0.N) : VSt F := (outsAt0 m c (t.val - 1) (Nat.lt_of_le_of_lt (Nat.sub_le _ _) t.isLt)).2.2

/-- A first point of a row tile: the reset values, updated. -/
theorem scr_first (c : Dev nD) (t : Fin cfg0.N) (h0 : t.val % 4 = 0) :
    scr m c t = stepV (iblk m c 0 t) (iblk m c 1 t) resetV := by
  have h1 : ¬t.val % 4 = 3 := by omega
  unfold scr
  rw [outsAt0_A m c t h0 h1]
  dsimp only
  rw [sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]

/-- Any other point: what the point before left, updated. -/
theorem scr_next (c : Dev nD) (t : Fin cfg0.N) (h0 : ¬t.val % 4 = 0) :
    scr m c t = stepV (iblk m c 0 t) (iblk m c 1 t) (scrPrev m c t) := by
  unfold scr scrPrev
  by_cases h1 : t.val % 4 = 3
  · rw [outsAt0_C m c t h0 h1]
    dsimp only
    rw [sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [outsAt0_B m c t h0 h1]
    dsimp only
    rw [sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-- A last point of a row tile stores the clamped ratio of the updated numerators and denominator. -/
theorem out4_last (c : Dev nD) (t : Fin cfg0.N) (h3 : t.val % 4 = 3) :
    (outsAt0 m c t.val t.isLt).1 = k0_pay3 (scr m c t).2.2 (scr m c t).2.1 := by
  have h0 : ¬t.val % 4 = 0 := by omega
  unfold scr
  rw [outsAt0_C m c t h0 h3]
  dsimp only
  rw [oC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-- … and the tile's column sums of the cross-entropy terms, in row 0 of an eight-row tile. -/
theorem out5_last (c : Dev nD) (t : Fin cfg0.N) (h3 : t.val % 4 = 3) :
    (outsAt0 m c t.val t.isLt).2.1 = k0_pay4 (scr m c t).2.2 (scr m c t).2.1 (iblk m c 2 t) (iblk m c 3 t) := by
  have h0 : ¬t.val % 4 = 0 := by omega
  unfold scr
  rw [outsAt0_C m c t h0 h3]
  dsimp only
  rw [oC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

end Cert.KernelIdeal.KV

end
-- ==== Proof.KRow.lean ====
/-
  One grid point's update read row by row at the extended reals: row `r` of the updated arrays is the
  specification's `step` of row `r` of the old ones, over the scores `∑ⱼ x0 (r, j) · x1 (s', j)` of the point's
  blocks and the indicator of `x1`'s positive entries. And the two epilogue values at an index: the clamped
  ratio, and the column sums of the cross-entropy terms placed in row 0 of an eight-row tile.
-/
import proofs.«428200_j21517786153438_3_alg».proof.Proof.KDefs
import proofs.«428200_j21517786153438_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen

/-- Row `r` of the three carried arrays. -/
def rowSt (st : VSt Ideal) (r : Fin 2048) : Cert.Spec.St :=
  ⟨st.1 (ix2 r (0 : Fin 1)), st.2.1 (ix2 r (0 : Fin 1)), fun j => st.2.2 (ix2 r j)⟩

/-! ## Words of the body read as extended reals -/

/-- The pattern `0xFF800000` denotes `-∞`. -/
private theorem ofBits_negInf : Ideal.ofBits .f32 0xFF800000#32 = ⊥ := by simp [Ideal.ofBits, Ideal.ieee]

/-- The word the comparison "`x` above zero" gives, widened and converted, is the indicator of `0 < x`. -/
private theorem indWord (x : EReal) :
    (((((Ideal.cmp .ogt x (Ideal.ofBits .f32 0x00000000#32)).setWidth 32).toInt : ℤ) : ℝ) : EReal) = Cert.Spec.ind x := by
  rw [Ideal.ofBits_zero_f32]
  unfold Ideal.cmp Cert.Spec.ind
  by_cases h : 0 < x
  · simp [h]
  · simp [h]

/-- So the converted comparison of a `[1024, 64]` block with the zero splat is the indicator, entry by entry. -/
private theorem indVec_apply (v : Vec Ideal S1024x64 .f32) (i : S1024x64.Idx) :
    (sitofp (F := Ideal) .f32 (extui 32 (cmpf .ogt v (broadcast S1024x64 (Scalar.ofBits (F := Ideal) .f32 0x00000000#32))) natLt_1_32)) i
      = Cert.Spec.ind (v i) := indWord (v i)

/-- The word "row coordinate `q` is 0" of an eight-row tile, widened and converted, is `1` on row 0 and `0` elsewhere. -/
private theorem rowMaskWord (q : Fin 8) :
    (((((IntOp.cmpi .eq (BitVec.ofNat 32 q.val) 0#32).setWidth 32).toInt : ℤ) : ℝ) : EReal) = if q.val = 0 then 1 else 0 := by
  fin_cases q <;> simp [IntOp.cmpi]

/-- The row mask of the `[8, 64]` tile: the row counter compared with zero, converted. -/
private theorem rowMask_apply (q1 : Fin 8) (q2 : Fin 64) :
    (sitofp (F := Ideal) .f32 (extui 32 (cmpi .eq (iota .tc S8x64 32 [0] iota_S8x64_d0_w32) (broadcast S8x64 0#32)) natLt_1_32)) (ix2 q1 q2)
      = if q1.val = 0 then 1 else 0 := by
  refine Eq.trans ?_ (rowMaskWord q1)
  show ((((IntOp.cmpi .eq (iota .tc S8x64 32 [0] iota_S8x64_d0_w32 (ix2 q1 q2)) 0#32).setWidth 32).toInt : ℝ) : EReal) = _
  rw [iota_single_apply]

/-! ## Columns: a vector as a one-column matrix, and a column spread over the rows' entries -/

section Layout
variable {α : Type}

/-- A `[a, 1]` column broadcast to `[a, b]` reads, at `(p, c)`, the column's entry at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The reductions along one axis -/

/-- Row `r` with the coordinate `s'` put back on the reduced second axis is `(r, s')`. -/
private theorem liftRow_eq (r : Fin 2048) (s' : Fin 1024) : reduces_S2048x1024_S2048.lift (ix1 r) s' = ix2 r s' :=
  funext fun a => Fin.ext (by match a with | ⟨0, _⟩ => rfl | ⟨1, _⟩ => rfl)

/-- Column `c` with the coordinate `k` put back on the reduced first axis is `(k, c)`. -/
private theorem liftCol_eq (c : Fin 64) (k : Fin 2048) : reduces_S2048x64_S64.lift (ix1 c) k = ix2 k c :=
  funext fun a => Fin.ext (by match a with | ⟨0, _⟩ => rfl | ⟨1, _⟩ => rfl)

/-- The maximum over the second axis of a `[2048, 1024]` array, read at row `r`. -/
private theorem rowMax_apply (src : FVec Ideal S2048x1024 .f32) (r : Fin 2048) :
    multiReduction (F := Ideal) .maximumf [1] S2048 src 0xFF800000#32 reduces_S2048x1024_S2048 (.inl rfl) rfl (ix1 r)
      = Finset.univ.fold max ⊥ (fun s' : Fin 1024 => src (ix2 r s')) := by
  refine (Ideal.multiReduction_maximumf_single src 0xFF800000#32 reduces_S2048x1024_S2048 (.inl rfl) rfl (ix1 r)).trans ?_
  rw [Ideal.ofBits_def, ofBits_negInf]
  have e : src ∘ reduces_S2048x1024_S2048.lift (ix1 r) = fun s' : Fin 1024 => src (ix2 r s') :=
    funext fun s' => congrArg src (liftRow_eq r s')
  rw [e]
  rfl

/-- The sum over the second axis of a `[2048, 1024]` array, read at row `r`. -/
private theorem rowSum_apply (src : FVec Ideal S2048x1024 .f32) (r : Fin 2048) :
    multiReduction (F := Ideal) .add [1] S2048 src 0x00000000#32 reduces_S2048x1024_S2048 (.inl rfl) rfl (ix1 r)
      = ∑ s' : Fin 1024, src (ix2 r s') := by
  refine (Ideal.multiReduction_add_single src 0x00000000#32 reduces_S2048x1024_S2048 (.inl rfl) rfl (ix1 r)).trans ?_
  exact Finset.sum_congr rfl fun s' _ => congrArg src (liftRow_eq r s')

/-- The sum over the first axis of a `[2048, 64]` array, read at column `c`. -/
private theorem colSum_apply (src : FVec Ideal S2048x64 .f32) (c : Fin 64) :
    multiReduction (F := Ideal) .add [0] S64 src 0x00000000#32 reduces_S2048x64_S64 (.inl rfl) rfl (ix1 c)
      = ∑ k : Fin 2048, src (ix2 k c) := by
  refine (Ideal.multiReduction_add_single src 0x00000000#32 reduces_S2048x64_S64 (.inl rfl) rfl (ix1 c)).trans ?_
  exact Finset.sum_congr rfl fun k _ => congrArg src (liftCol_eq c k)

/-! ## The two contractions: operand indices axis by axis, then the product read at an index -/

private theorem lhsA_0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
private theorem lhsA_1 (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q
private theorem rhsA_0 (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q
private theorem rhsA_1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- The first contraction read at `(r, s')`: the sum over the 64 labels of the products. -/
private theorem matmulA_apply (lhs : FVec Ideal S2048x64 .bf16) (rhs : FVec Ideal S64x1024 .bf16) (r : Fin 2048) (s' : Fin 1024) :
    matmul dot_S2048x64_S64x1024_S2048x1024_1_0_0_1_n_n none lhs rhs (constant S2048x1024 .f32 0x00000000#32) (ix2 r s')
      = ∑ k : Fin 64, lhs (ix2 r k) * rhs (ix2 k s') := by
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 r s') ((contrEquiv1 dot_S2048x64_S64x1024_S2048x1024_1_0_0_1_n_n 64 rfl rfl).symm k) = ix2 r k := funext fun a => Fin.ext (by
    match a with
    | ⟨0, _⟩ => exact lhsA_0 _ _
    | ⟨1, _⟩ => exact (lhsA_1 _ _).trans hk)
  have er : dot_S2048x64_S64x1024_S2048x1024_1_0_0_1_n_n.rhsIdx (ix2 r s') ((contrEquiv1 dot_S2048x64_S64x1024_S2048x1024_1_0_0_1_n_n 64 rfl rfl).symm k) = ix2 k s' := funext fun a => Fin.ext (by
    match a with
    | ⟨0, _⟩ => exact (rhsA_0 _ _).trans hk
    | ⟨1, _⟩ => exact rhsA_1 _ _)
  rw [el, er]

private theorem lhsB_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
private theorem lhsB_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
private theorem rhsB_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
private theorem rhsB_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The second contraction read at `(r, j)`: the sum over the 1024 states of the products. -/
private theorem matmulB_apply (lhs : FVec Ideal S2048x1024 .bf16) (rhs : FVec Ideal S1024x64 .bf16) (r : Fin 2048) (j : Fin 64) :
    matmul dot_S2048x1024_S1024x64_S2048x64_1_0_0_1_n_n none lhs rhs (constant S2048x64 .f32 0x00000000#32) (ix2 r j)
      = ∑ k : Fin 1024, lhs (ix2 r k) * rhs (ix2 k j) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r j) ((contrEquiv1 dot_S2048x1024_S1024x64_S2048x64_1_0_0_1_n_n 1024 rfl rfl).symm k) = ix2 r k := funext fun a => Fin.ext (by
    match a with
    | ⟨0, _⟩ => exact lhsB_0 _ _
    | ⟨1, _⟩ => exact (lhsB_1 _ _).trans hk)
  have er : dot_S2048x1024_S1024x64_S2048x64_1_0_0_1_n_n.rhsIdx (ix2 r j) ((contrEquiv1 dot_S2048x1024_S1024x64_S2048x64_1_0_0_1_n_n 1024 rfl rfl).symm k) = ix2 k j := funext fun a => Fin.ext (by
    match a with
    | ⟨0, _⟩ => exact (rhsB_0 _ _).trans hk
    | ⟨1, _⟩ => exact rhsB_1 _ _)
  rw [el, er]

/-! ## The payloads at an index -/

/-- The scores: entry `(r, s')` is the sum over the labels of the products of the two blocks' rows. -/
private theorem pay8_apply (x0 : Vec Ideal S2048x64 .f32) (x1 : Vec Ideal S1024x64 .f32) (r : Fin 2048) (s' : Fin 1024) :
    k0_pay8 (F := Ideal) x0 x1 (ix2 r s') = ∑ j : Fin 64, x0 (ix2 r j) * x1 (ix2 s' j) := by
  unfold k0_pay8
  refine (matmulA_apply _ _ r s').trans ?_
  refine Finset.sum_congr rfl fun k _ => ?_
  rw [transpose_ix2_apply]
  rfl

/-- The new maximum: the old one against the maximum of the row's scores. -/
private theorem pay9_apply (x0 : Vec Ideal S2048x64 .f32) (x1 : Vec Ideal S1024x64 .f32) (m : Vec Ideal S2048x1 .f32) (r : Fin 2048) (u : Fin 1) :
    k0_pay9 (F := Ideal) x0 x1 m (ix2 r u)
      = max (m (ix2 r u)) (Finset.univ.fold max ⊥ (fun s' : Fin 1024 => k0_pay8 (F := Ideal) x0 x1 (ix2 r s'))) := by
  unfold k0_pay9
  refine congrArg (max (m (ix2 r u))) ?_
  refine (shapeCast_a_a1_apply _ shapeCasts_S2048_S2048x1 r u).trans ?_
  exact rowMax_apply _ r

/-- The factor on the old sums, and the exponentials of the shifted scores. -/
private theorem pay10_apply (x0 : Vec Ideal S2048x64 .f32) (x1 : Vec Ideal S1024x64 .f32) (m : Vec Ideal S2048x1 .f32) (i : S2048x1.Idx) :
    k0_pay10 (F := Ideal) x0 x1 m i = Ideal.exp (m i - k0_pay9 (F := Ideal) x0 x1 m i) := rfl

private theorem pay11_apply (x0 : Vec Ideal S2048x64 .f32) (x1 : Vec Ideal S1024x64 .f32) (m : Vec Ideal S2048x1 .f32) (r : Fin 2048) (s' : Fin 1024) :
    k0_pay11 (F := Ideal) x0 x1 m (ix2 r s')
      = Ideal.exp (k0_pay8 (F := Ideal) x0 x1 (ix2 r s') - k0_pay9 (F := Ideal) x0 x1 m (ix2 r (0 : Fin 1))) := by
  unfold k0_pay11
  refine congrArg (fun t => Ideal.exp (k0_pay8 (F := Ideal) x0 x1 (ix2 r s') - t)) ?_
  exact broadcastTo_a1_ab_apply _ broadcasts_S2048x1_S2048x1024 r s'

/-- The new denominator. -/
private theorem pay12_apply (x0 : Vec Ideal S2048x64 .f32) (x1 : Vec Ideal S1024x64 .f32) (m l : Vec Ideal S2048x1 .f32) (r : Fin 2048) (u : Fin 1) :
    k0_pay12 (F := Ideal) x0 x1 m l (ix2 r u)
      = k0_pay10 (F := Ideal) x0 x1 m (ix2 r u) * l (ix2 r u) + ∑ s' : Fin 1024, k0_pay11 (F := Ideal) x0 x1 m (ix2 r s') := by
  unfold k0_pay12
  rw [shapeCast_self]
  refine congrArg (fun t => k0_pay10 (F := Ideal) x0 x1 m (ix2 r u) * l (ix2 r u) + t) ?_
  refine (shapeCast_a_a1_apply _ shapeCasts_S2048_S2048x1 r u).trans ?_
  exact rowSum_apply _ r

/-- The tile's numerators: the exponentials against the indicator of the positive entries. -/
private theorem pay13_apply (x0 : Vec Ideal S2048x64 .f32) (x1 x1' : Vec Ideal S1024x64 .f32) (m : Vec Ideal S2048x1 .f32) (r : Fin 2048) (j : Fin 64) :
    k0_pay13 (F := Ideal) x0 x1 x1' m (ix2 r j)
      = ∑ s' : Fin 1024, k0_pay11 (F := Ideal) x0 x1 m (ix2 r s') * Cert.Spec.ind (x1' (ix2 s' j)) := by
  unfold k0_pay13
  refine (matmulB_apply _ _ r j).trans ?_
  refine Finset.sum_congr rfl fun k _ => ?_
  exact congrArg (fun t => k0_pay11 (F := Ideal) x0 x1 m (ix2 r k) * t) (indVec_apply x1' (ix2 k j))

/-- The new numerators: the old ones scaled, plus the tile's. -/
private theorem pay1_apply (v20 : FVec Ideal S2048x1 .f32) (v33 : FVec Ideal S2048x64 .f32) (v34 : Vec Ideal S2048x64 .f32) (r : Fin 2048) (j : Fin 64) :
    k0_pay1 (F := Ideal) v20 v33 v34 (ix2 r j) = v20 (ix2 r (0 : Fin 1)) * v34 (ix2 r j) + v33 (ix2 r j) := by
  unfold k0_pay1
  rw [shapeCast_self]
  refine congrArg (fun t => t * v34 (ix2 r j) + v33 (ix2 r j)) ?_
  exact broadcastTo_a1_ab_apply _ broadcasts_S2048x1_S2048x64 r j

/-- The stored maximum is the computed one. -/
private theorem pay2_eq (v : FVec Ideal S2048x1 .f32) : k0_pay2 (F := Ideal) v = v := by
  unfold k0_pay2
  exact shapeCast_self _ _

/-- The three values the first point of a row tile stores: `-∞`, `0`, `0`. -/
private theorem pay5_apply (i : S2048x1.Idx) : k0_pay5 (F := Ideal) i = ⊥ := by
  unfold k0_pay5
  rw [shapeCast_self]
  exact ofBits_negInf

private theorem pay6_apply (i : S2048x1.Idx) : k0_pay6 (F := Ideal) i = 0 := by
  unfold k0_pay6
  rw [shapeCast_self]
  exact Ideal.ofBits_zero_f32

private theorem pay7_apply (i : S2048x64.Idx) : k0_pay7 (F := Ideal) i = 0 := by
  unfold k0_pay7
  rw [shapeCast_self]
  exact Ideal.ofBits_zero_f32

/-! ## Row by row -/

theorem rowSt_resetV (r : Fin 2048) : rowSt (resetV (F := Ideal)) r = Cert.Spec.reset := by
  unfold rowSt resetV Cert.Spec.reset
  simp only [pay5_apply, pay6_apply, pay7_apply]

theorem rowSt_stepV (x0 : Vec Ideal S2048x64 .f32) (x1 : Vec Ideal S1024x64 .f32) (st : VSt Ideal) (r : Fin 2048) :
    rowSt (stepV x0 x1 st) r
      = Cert.Spec.step (fun s' : Fin 1024 => ∑ j : Fin 64, x0 (ix2 r j) * x1 (ix2 s' j))
          (fun s' j => Cert.Spec.ind (x1 (ix2 s' j))) (rowSt st r) := by
  -- the row's scores, and the new maximum and the exponentials over them
  have hsc : (fun s' : Fin 1024 => k0_pay8 (F := Ideal) x0 x1 (ix2 r s'))
      = fun s' : Fin 1024 => ∑ j : Fin 64, x0 (ix2 r j) * x1 (ix2 s' j) := funext fun s' => pay8_apply x0 x1 r s'
  have h9 := pay9_apply x0 x1 st.1 r (0 : Fin 1)
  rw [hsc] at h9
  have h11 : ∀ s' : Fin 1024, k0_pay11 (F := Ideal) x0 x1 st.1 (ix2 r s')
      = Ideal.exp ((∑ j : Fin 64, x0 (ix2 r j) * x1 (ix2 s' j)) - k0_pay9 (F := Ideal) x0 x1 st.1 (ix2 r (0 : Fin 1))) := fun s' => by
    rw [pay11_apply, pay8_apply]
  unfold rowSt stepV Cert.Spec.step
  refine Cert.Spec.St.mk.injEq _ _ _ _ _ _ |>.mpr ⟨?_, ?_, ?_⟩
  · show k0_pay2 (F := Ideal) (k0_pay9 (F := Ideal) x0 x1 st.1) (ix2 r (0 : Fin 1)) = _
    rw [pay2_eq, h9]
  · show k0_pay12 (F := Ideal) x0 x1 st.1 st.2.1 (ix2 r (0 : Fin 1)) = _
    rw [pay12_apply, pay10_apply]
    simp only [h11]
    rw [h9]
  · funext j
    show k0_pay1 (F := Ideal) (k0_pay10 (F := Ideal) x0 x1 st.1) (k0_pay13 (F := Ideal) x0 x1 x1 st.1) st.2.2 (ix2 r j) = _
    rw [pay1_apply, pay10_apply, pay13_apply]
    simp only [h11]
    rw [h9]

theorem pay3_apply (a : Vec Ideal S2048x64 .f32) (l : Vec Ideal S2048x1 .f32) (r : Fin 2048) (j : Fin 64) :
    k0_pay3 (F := Ideal) a l (ix2 r j)
      = min Cert.Spec.one32 (max Cert.Spec.zero32 (Ideal.div (a (ix2 r j)) (l (ix2 r (0 : Fin 1))))) := by
  unfold k0_pay3
  show min Cert.Spec.one32 (max Cert.Spec.zero32 (Ideal.div (a (ix2 r j)) (broadcastTo S2048x64 l broadcasts_S2048x1_S2048x64 (ix2 r j)))) = _
  rw [broadcastTo_a1_ab_apply]

theorem pay4_apply (a : Vec Ideal S2048x64 .f32) (l : Vec Ideal S2048x1 .f32) (yb mb : Vec Ideal S2048x64 .f32)
    (q0 : Fin 1) (q1 : Fin 8) (q2 : Fin 64) :
    k0_pay4 (F := Ideal) a l yb mb (ix3 q0 q1 q2)
      = (∑ r : Fin 2048, Cert.Spec.bceK (k0_pay3 (F := Ideal) a l (ix2 r q2)) (yb (ix2 r q2)) (mb (ix2 r q2)))
          * (if q1.val = 0 then 1 else 0) := by
  unfold k0_pay4
  -- the stored tile is the [8, 64] product of the column sums' row and the row mask
  refine (shapeCast_ab_1ab_apply _ shapeCasts_S8x64_S1x8x64 q0 q1 q2).trans ?_
  refine (mulf_apply _ _ (ix2 q1 q2)).trans ?_
  refine congrArg₂ (· * ·) ?_ (rowMask_apply q1 q2)
  refine (broadcastTo_1b_ab_apply _ broadcasts_S1x64_S8x64 q1 q2).trans ?_
  rw [shapeCast_self]
  refine (shapeCast_a_1a_apply _ shapeCasts_S64_S1x64 (0 : Fin 1) q2).trans ?_
  refine (colSum_apply _ q2).trans ?_
  rfl

end Cert.KernelIdeal.KV

end
-- ==== Proof.KBlocks.lean ====
/-
  The four input windows' blocks read at an index. At grid point `t` = (row tile `t / 4`, state tile `t % 4`):
  window 0 is rows `2048 · (t / 4) + r` of the logits, window 1 rows `1024 · (t % 4) + s'` of the state matrix,
  windows 2 and 3 rows `2048 · (t / 4) + r` of the targets and of the mask. A block's coordinate in its array is
  always (block index) × (block size) + (coordinate inside the block).
-/
import proofs.«428200_j21517786153438_3_alg».proof.Proof.Gen.KernelIdeal.Frame
import proofs.«428200_j21517786153438_3_alg».proof.Proof.Spec
import Idealize.ShloMosaic.Lib.ValueIdx
import Idealize.ShloMosaic.Lib.Pipeline.Value

noncomputable section

namespace Cert.KernelIdeal.KV

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid has sixteen points, so a point's row tile `t / 4` is below 4. -/
private theorem rowTile_lt (t : Fin cfg0.N) : t.val / 4 < 4 := by
  have h : t.val < 16 := lt_of_lt_of_eq t.isLt N_0
  omega

/-- and its state tile `t % 4` is below 4. -/
private theorem stTile_lt (t : Fin cfg0.N) : t.val % 4 < 4 := Nat.mod_lt _ (by norm_num)

/-- Window 0's index map at point `t`: (row tile, 0). Decided point by point over the grid. -/
private theorem index0 (t : Fin cfg0.N) : win0_0.index t 0 = t.val / 4 ∧ win0_0.index t 1 = 0 := by
  rcases fin_N0 t with rfl | rfl | rfl | rfl | rfl | rfl | rfl | rfl | rfl | rfl | rfl | rfl | rfl | rfl | rfl | rfl <;> decide

theorem iblk0_apply (c : Dev nD) (t : Fin cfg0.N) (r : Fin 2048) (j : Fin 64) :
    (iblk m c 0 t : Vec F S2048x64 .f32) (ix2 r j)
      = m ((c.tc : Thread nD τ).loc main_arg0) (ix2 (Cert.Spec.bIdx (t.val / 4) r) j) := by
  have hq := rowTile_lt t
  have hr := r.isLt
  unfold iblk
  rw [View.read_apply]
  show V m c main_arg0 _ = m (c.tc.loc main_arg0) _
  rw [V_main_arg0]
  congr 1
  funext a
  apply Fin.ext
  match a with
  | ⟨0, _⟩ =>
    show win0_0.index t 0 * 2048 + 1 * r.val = (2048 * (t.val / 4) + r.val) % 8192
    rw [(index0 t).1, Nat.mod_eq_of_lt (show 2048 * (t.val / 4) + r.val < 8192 by omega)]; omega
  | ⟨1, _⟩ =>
    show win0_0.index t 1 * 64 + 1 * j.val = j.val
    rw [(index0 t).2]; omega

/-- Window 1's index map at point `t`: (state tile, 0). -/
private theorem index1 (t : Fin cfg0.N) : win0_1.index t 0 = t.val % 4 ∧ win0_1.index t 1 = 0 := by
  rcases fin_N0 t with rfl | rfl | rfl | rfl | rfl | rfl | rfl | rfl | rfl | rfl | rfl | rfl | rfl | rfl | rfl | rfl <;> decide

theorem iblk1_apply (c : Dev nD) (t : Fin cfg0.N) (s' : Fin 1024) (j : Fin 64) :
    (iblk m c 1 t : Vec F S1024x64 .f32) (ix2 s' j)
      = m ((c.tc : Thread nD τ).loc main_arg3) (ix2 (Cert.Spec.sIdx (t.val % 4) s') j) := by
  have hq := stTile_lt t
  have hs := s'.isLt
  unfold iblk
  rw [View.read_apply]
  show V m c main_arg3 _ = m (c.tc.loc main_arg3) _
  rw [V_main_arg3]
  congr 1
  funext a
  apply Fin.ext
  match a with
  | ⟨0, _⟩ =>
    show win0_1.index t 0 * 1024 + 1 * s'.val = (1024 * (t.val % 4) + s'.val) % 4096
    rw [(index1 t).1, Nat.mod_eq_of_lt (show 1024 * (t.val % 4) + s'.val < 4096 by omega)]; omega
  | ⟨1, _⟩ =>
    show win0_1.index t 1 * 64 + 1 * j.val = j.val
    rw [(index1 t).2]; omega

/-- Window 2's index map at point `t`: (row tile, 0). -/
private theorem index2 (t : Fin cfg0.N) : win0_2.index t 0 = t.val / 4 ∧ win0_2.index t 1 = 0 := by
  rcases fin_N0 t with rfl | rfl | rfl | rfl | rfl | rfl | rfl | rfl | rfl | rfl | rfl | rfl | rfl | rfl | rfl | rfl <;> decide

theorem iblk2_apply (c : Dev nD) (t : Fin cfg0.N) (r : Fin 2048) (j : Fin 64) :
    (iblk m c 2 t : Vec F S2048x64 .f32) (ix2 r j)
      = m ((c.tc : Thread nD τ).loc main_arg1) (ix2 (Cert.Spec.bIdx (t.val / 4) r) j) := by
  have hq := rowTile_lt t
  have hr := r.isLt
  unfold iblk
  rw [View.read_apply]
  show V m c main_arg1 _ = m (c.tc.loc main_arg1) _
  rw [V_main_arg1]
  congr 1
  funext a
  apply Fin.ext
  match a with
  | ⟨0, _⟩ =>
    show win0_2.index t 0 * 2048 + 1 * r.val = (2048 * (t.val / 4) + r.val) % 8192
    rw [(index2 t).1, Nat.mod_eq_of_lt (show 2048 * (t.val / 4) + r.val < 8192 by omega)]; omega
  | ⟨1, _⟩ =>
    show win0_2.index t 1 * 64 + 1 * j.val = j.val
    rw [(index2 t).2]; omega

/-- Window 3's index map at point `t`: (row tile, 0). -/
private theorem index3 (t : Fin cfg0.N) : win0_3.index t 0 = t.val / 4 ∧ win0_3.index t 1 = 0 := by
  rcases fin_N0 t with rfl | rfl | rfl | rfl | rfl | rfl | rfl | rfl | rfl | rfl | rfl | rfl | rfl | rfl | rfl | rfl <;> decide

theorem iblk3_apply (c : Dev nD) (t : Fin cfg0.N) (r : Fin 2048) (j : Fin 64) :
    (iblk m c 3 t : Vec F S2048x64 .f32) (ix2 r j)
      = m ((c.tc : Thread nD τ).loc main_arg2) (ix2 (Cert.Spec.bIdx (t.val / 4) r) j) := by
  have hq := rowTile_lt t
  have hr := r.isLt
  unfold iblk
  rw [View.read_apply]
  show V m c main_arg2 _ = m (c.tc.loc main_arg2) _
  rw [V_main_arg2]
  congr 1
  funext a
  apply Fin.ext
  match a with
  | ⟨0, _⟩ =>
    show win0_3.index t 0 * 2048 + 1 * r.val = (2048 * (t.val / 4) + r.val) % 8192
    rw [(index3 t).1, Nat.mod_eq_of_lt (show 2048 * (t.val / 4) + r.val < 8192 by omega)]; omega
  | ⟨1, _⟩ =>
    show win0_3.index t 1 * 64 + 1 * j.val = j.val
    rw [(index3 t).2]; omega

end Cert.KernelIdeal.KV

end
-- ==== Proof.KInv.lean ====
/-
  The invariant of the grid walk. Grid point `n = 4·i + k` is state tile `k` of row tile `i`. After it, row `r`
  of the three carried arrays is the specification's state of row `2048·i + r` after state tiles `0 … k`: at
  `k = 0` the point resets and updates, at `k > 0` it updates what point `n - 1` (tile `k - 1` of the same row
  tile) left; the scores it forms are those of the row against the tile's 1024 states, because window 0's block
  is rows `2048·i + r` of the logits and window 1's rows `1024·k + s'` of the state matrix.
-/
import proofs.«428200_j21517786153438_3_alg».proof.Proof.KSteps
import proofs.«428200_j21517786153438_3_alg».proof.Proof.KRow
import proofs.«428200_j21517786153438_3_alg».proof.Proof.KBlocks

noncomputable section

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The logits, the targets, the mask and the state matrix as the program finds them on core `c`. -/
abbrev fA (c : Dev nD) : Cert.Spec.ArrB := m ((c.tc : Thread nD τ).loc main_arg0)
abbrev yA (c : Dev nD) : Cert.Spec.ArrB := m ((c.tc : Thread nD τ).loc main_arg1)
abbrev mA (c : Dev nD) : Cert.Spec.ArrB := m ((c.tc : Thread nD τ).loc main_arg2)
abbrev sA (c : Dev nD) : Cert.Spec.ArrS := m ((c.tc : Thread nD τ).loc main_arg3)

/-- Window 0's and window 1's blocks at point `t`, at their literal types. -/
abbrev b0 (c : Dev nD) (t : Fin cfg0.N) : Vec Ideal S2048x64 .f32 := iblk m c 0 t
abbrev b1 (c : Dev nD) (t : Fin cfg0.N) : Vec Ideal S1024x64 .f32 := iblk m c 1 t

/-- The scores a point forms from its two blocks are the row's scores against the point's state tile. -/
theorem tile_scores (c : Dev nD) (t : Fin cfg0.N) (i k : ℕ) (hi : t.val / 4 = i) (hk : t.val % 4 = k) (r : Fin 2048) :
    (fun s' : Fin 1024 => ∑ j : Fin 64, b0 m c t (ix2 r j) * b1 m c t (ix2 s' j))
      = Cert.Spec.tileSc (fA m c) (sA m c) (Cert.Spec.bIdx i r) k := by
  funext s'
  unfold Cert.Spec.tileSc Cert.Spec.score
  refine Finset.sum_congr rfl fun j _ => ?_
  have e0 : b0 m c t (ix2 r j) = fA m c (ix2 (Cert.Spec.bIdx i r) j) := by
    rw [← hi]; exact iblk0_apply m c t r j
  have e1 : b1 m c t (ix2 s' j) = sA m c (ix2 (Cert.Spec.sIdx k s') j) := by
    rw [← hk]; exact iblk1_apply m c t s' j
  rw [e0, e1]

/-- … and its weights the indicator of the tile's positive entries. -/
theorem tile_weights (c : Dev nD) (t : Fin cfg0.N) (k : ℕ) (hk : t.val % 4 = k) :
    (fun (s' : Fin 1024) (j : Fin 64) => Cert.Spec.ind (b1 m c t (ix2 s' j)))
      = Cert.Spec.tileW (sA m c) k := by
  funext s' j
  unfold Cert.Spec.tileW
  have e1 : b1 m c t (ix2 s' j) = sA m c (ix2 (Cert.Spec.sIdx k s') j) := by
    rw [← hk]; exact iblk1_apply m c t s' j
  rw [e1]

/-- One point's update of row `r`, in the specification's terms. -/
theorem row_step (c : Dev nD) (t : Fin cfg0.N) (i k : ℕ) (hi : t.val / 4 = i) (hk : t.val % 4 = k) (r : Fin 2048)
    (st : VSt Ideal) :
    rowSt (stepV (iblk m c 0 t) (iblk m c 1 t) st) r
      = Cert.Spec.step (Cert.Spec.tileSc (fA m c) (sA m c) (Cert.Spec.bIdx i r) k) (Cert.Spec.tileW (sA m c) k) (rowSt st r) :=
  (rowSt_stepV (b0 m c t) (b1 m c t) st r).trans
    (congrArg₂ (fun a b => Cert.Spec.step a b (rowSt st r)) (tile_scores m c t i k hi hk r) (tile_weights m c t k hk))

/-- The invariant, by induction on the point. -/
theorem row_inv (c : Dev nD) : ∀ (n : ℕ) (h : n < cfg0.N) (i k : ℕ), n = 4 * i + k → k < 4 → ∀ r : Fin 2048,
    rowSt (scr m c ⟨n, h⟩) r = Cert.Spec.stAfter (fA m c) (sA m c) (Cert.Spec.bIdx i r) k
  | 0, h, i, k, hn, hk, r => by
    obtain rfl : k = 0 := by omega
    have hi : (⟨0, h⟩ : Fin cfg0.N).val / 4 = i := by show 0 / 4 = i; omega
    rw [scr_first m c ⟨0, h⟩ (by rfl), row_step m c ⟨0, h⟩ i 0 hi (by rfl) r, rowSt_resetV]
    rfl
  | n + 1, h, i, k, hn, hk, r => by
    have hi : (⟨n + 1, h⟩ : Fin cfg0.N).val / 4 = i := by show (n + 1) / 4 = i; omega
    have hk' : (⟨n + 1, h⟩ : Fin cfg0.N).val % 4 = k := by show (n + 1) % 4 = k; omega
    cases k with
    | zero =>
      rw [scr_first m c ⟨n + 1, h⟩ hk', row_step m c ⟨n + 1, h⟩ i 0 hi hk' r, rowSt_resetV]
      rfl
    | succ k =>
      have h0 : ¬(⟨n + 1, h⟩ : Fin cfg0.N).val % 4 = 0 := by rw [hk']; omega
      rw [scr_next m c ⟨n + 1, h⟩ h0, row_step m c ⟨n + 1, h⟩ i (k + 1) hi hk' r]
      have ih := row_inv c n (Nat.lt_of_succ_lt h) i k (by omega) (by omega) r
      show Cert.Spec.step _ _ (rowSt (scr m c ⟨n, Nat.lt_of_succ_lt h⟩) r) = _
      rw [ih]
      rfl

/-- After the last state tile of row tile `i` (point `4·i + 3`): the row's state after all four tiles. -/
theorem row_last (c : Dev nD) (t : Fin cfg0.N) (h3 : t.val % 4 = 3) (r : Fin 2048) :
    rowSt (scr m c t) r = Cert.Spec.stAfter (fA m c) (sA m c) (Cert.Spec.bIdx (t.val / 4) r) 3 := by
  obtain ⟨n, h⟩ := t
  exact row_inv m c n h (n / 4) 3 (by dsimp only at h3; omega) (by omega) r

end Cert.KernelIdeal.KV

end
-- ==== Proof.KFinal.lean ====
/-
  The two output arrays after the run. Only the last point of each row tile (point `4·i + 3`) writes back.
  Window 4's block there is rows `2048·i + r` of the marginals: the clamped ratio of the row's numerators and
  denominator after all four state tiles. Window 5's block is the [1, 8, 64] tile `i` of the partial sums: the
  row tile's column sums of the cross-entropy terms in row 0, zero in rows 1 … 7. The four write-backs of each
  window tile its array, so each array ends at one function of the arguments.
-/
import proofs.«428200_j21517786153438_3_alg».proof.Proof.KInv
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The kernel's marginals as an array. -/
def pmArr (c : Dev nD) : Cert.Spec.ArrB := fun i => Cert.Spec.pmK (fA m c) (sA m c) (i 0) (i 1)

/-- A point's row tile `t / 4` is below 4: the grid has sixteen points. -/
private theorem rowTile_lt4 (t : Fin cfg0.N) : t.val / 4 < 4 := by
  have h : t.val < 16 := lt_of_lt_of_eq t.isLt N_0
  omega

/-- Window 4's index map at point `t`: (row tile, 0). Decided point by point over the grid. -/
private theorem index4 (t : Fin cfg0.N) : win0_4.index t 0 = t.val / 4 ∧ win0_4.index t 1 = 0 := by
  rcases fin_N0 t with rfl | rfl | rfl | rfl | rfl | rfl | rfl | rfl | rfl | rfl | rfl | rfl | rfl | rfl | rfl | rfl <;> decide

/-- Window 5's index map at point `t`: (row tile, 0, 0). -/
private theorem index5 (t : Fin cfg0.N) :
    win0_5.index t 0 = t.val / 4 ∧ win0_5.index t 1 = 0 ∧ win0_5.index t 2 = 0 := by
  rcases fin_N0 t with rfl | rfl | rfl | rfl | rfl | rfl | rfl | rfl | rfl | rfl | rfl | rfl | rfl | rfl | rfl | rfl <;> decide

/-- Row `r`, column `j` of window 4's block at point `t` is row `2048 · (t / 4) + r`, column `j` of its array. -/
private theorem emb4 (t : Fin cfg0.N) (r : Fin 2048) (j : Fin 64) :
    ((cfg0.win 4).blk t).view.emb (ix2 r j) = ix2 (Cert.Spec.bIdx (t.val / 4) r) j := by
  have hq := rowTile_lt4 t
  have hr := r.isLt
  funext a
  apply Fin.ext
  match a with
  | ⟨0, _⟩ =>
    show win0_4.index t 0 * 2048 + 1 * r.val = (2048 * (t.val / 4) + r.val) % 8192
    rw [(index4 t).1, Nat.mod_eq_of_lt (show 2048 * (t.val / 4) + r.val < 8192 by omega)]; omega
  | ⟨1, _⟩ =>
    show win0_4.index t 1 * 64 + 1 * j.val = j.val
    rw [(index4 t).2]; omega

/-- At the last point of a row tile the clamped ratio of a row's numerators and denominator is the row's marginal:
    the carried state there is the row's state after all four state tiles. -/
private theorem pm_last (c : Dev nD) (t : Fin cfg0.N) (h3 : t.val % 4 = 3) (r : Fin 2048) (j : Fin 64) :
    k0_pay3 (F := Ideal) (scr m c t).2.2 (scr m c t).2.1 (ix2 r j)
      = Cert.Spec.pmK (fA m c) (sA m c) (Cert.Spec.bIdx (t.val / 4) r) j := by
  rw [pay3_apply]
  show min Cert.Spec.one32 (max Cert.Spec.zero32
      (Ideal.div ((rowSt (scr m c t) r).acc j) (rowSt (scr m c t) r).l))
    = Cert.Spec.pmK (fA m c) (sA m c) (Cert.Spec.bIdx (t.val / 4) r) j
  rw [row_last m c t h3 r]
  rfl

/-- What the last point of a row tile writes back through window 4 is its block of the marginals. -/
private theorem flushed4 (c : Dev nD) (t : Fin cfg0.N) (hf : (cfg0.win 4).flush t = true) :
    (dats m 0 c).flushed 4 t = ((cfg0.win 4).blk t).view.read (Elt Ideal) (pmArr m c) := by
  have h3 : t.val % 4 = 3 := (flush0_4 t).mp hf
  show (cfg0.win 4).cut (grid0.coords t) ((dats m 0 c).after 4 t) = _
  rw [after0_4, out4_last m c t h3]
  funext y
  obtain ⟨r, j, rfl⟩ : ∃ (r : Fin 2048) (j : Fin 64), y = ix2 r j :=
    ⟨y 0, y 1, eq_ix2 (n0 := 2048) (n1 := 64) y⟩
  rw [View.read_apply]
  show k0_pay3 (F := Ideal) (scr m c t).2.2 (scr m c t).2.1 (ix2 r j) = pmArr m c _
  rw [pm_last m c t h3, emb4]
  rfl

/-- Every entry of the marginals' array lies in the block written back at the last point of its row tile,
    point `4 · (i₀ / 2048) + 3`. -/
private theorem cover4 (i : (⟨2, ![8192, 64]⟩ : Shape).Idx) :
    ∃ t : Fin cfg0.N, (cfg0.win 4).flush t = true ∧ i ∈ ((cfg0.win 4).blk t).view.set := by
  have h0 : (i 0).val < 8192 := (i 0).isLt
  have h1 : (i 1).val < 64 := (i 1).isLt
  obtain ⟨t, ht⟩ : ∃ t : Fin cfg0.N, t.val = 4 * ((i 0).val / 2048) + 3 :=
    ⟨⟨4 * ((i 0).val / 2048) + 3, lt_of_lt_of_eq (by omega) N_0.symm⟩, rfl⟩
  refine ⟨t, (flush0_4 t).mpr (by omega), ?_⟩
  show i ∈ ((View.whole main_v0_0).slice (win0_4.rect t)).set
  rw [View.set_slice_whole, Rect.mem_set_unit]
  intro a
  match a with
  | ⟨0, _⟩ =>
    show win0_4.index t 0 * 2048 ≤ (i 0).val ∧ (i 0).val < win0_4.index t 0 * 2048 + 2048
    rw [(index4 t).1]; omega
  | ⟨1, _⟩ =>
    show win0_4.index t 1 * 64 ≤ (i 1).val ∧ (i 1).val < win0_4.index t 1 * 64 + 64
    rw [(index4 t).2]; omega

/-- The marginals' array after the run. -/
theorem final4 (c : Dev nD) : (dats m 0 c).arrAt 4 cfg0.N = pmArr m c :=
  (dats m 0 c).arrAt_eq_of_cover 4 (pmArr m c) (fun t hf => flushed4 m c t hf) (fun i => cover4 i)

/-- Entry `(0, q₁, q₂)` of window 5's block at point `t` is entry `(t / 4, q₁, q₂)` of its array. -/
private theorem emb5 (t : Fin cfg0.N) (q0 : Fin 1) (q1 : Fin 8) (q2 : Fin 64) :
    ((cfg0.win 5).blk t).view.emb (ix3 q0 q1 q2) = ix3 (⟨t.val / 4, rowTile_lt4 t⟩ : Fin 4) q1 q2 := by
  have hq0 : q0.val = 0 := by have := q0.isLt; omega
  funext a
  apply Fin.ext
  match a with
  | ⟨0, _⟩ =>
    show win0_5.index t 0 * 1 + 1 * q0.val = t.val / 4
    rw [(index5 t).1]; omega
  | ⟨1, _⟩ =>
    show win0_5.index t 1 * 8 + 1 * q1.val = q1.val
    rw [(index5 t).2.1]; omega
  | ⟨2, _⟩ =>
    show win0_5.index t 2 * 64 + 1 * q2.val = q2.val
    rw [(index5 t).2.2]; omega

/-- The partial sums at an entry given by its coordinates. -/
private theorem partK_ix3 (f y mk : Cert.Spec.ArrB) (S : Cert.Spec.ArrS) (i : Fin 4) (q1 : Fin 8) (q2 : Fin 64) :
    Cert.Spec.partK f y mk S (ix3 i q1 q2)
      = (∑ r : Fin 2048, Cert.Spec.bceK (Cert.Spec.pmK f S (Cert.Spec.bIdx i.val r) q2)
            (y (ix2 (Cert.Spec.bIdx i.val r) q2)) (mk (ix2 (Cert.Spec.bIdx i.val r) q2)))
          * (if q1.val = 0 then 1 else 0) := rfl

/-- The targets' block at point `t`: a [2048, 64] array. -/
private abbrev yB (c : Dev nD) (t : Fin cfg0.N) : Vec Ideal S2048x64 .f32 := iblk m c 2 t
/-- The mask's block at point `t`: a [2048, 64] array. -/
private abbrev mB (c : Dev nD) (t : Fin cfg0.N) : Vec Ideal S2048x64 .f32 := iblk m c 3 t

private theorem yB_apply (c : Dev nD) (t : Fin cfg0.N) (r : Fin 2048) (j : Fin 64) :
    yB m c t (ix2 r j) = yA m c (ix2 (Cert.Spec.bIdx (t.val / 4) r) j) := iblk2_apply m c t r j
private theorem mB_apply (c : Dev nD) (t : Fin cfg0.N) (r : Fin 2048) (j : Fin 64) :
    mB m c t (ix2 r j) = mA m c (ix2 (Cert.Spec.bIdx (t.val / 4) r) j) := iblk3_apply m c t r j

/-- One row's cross-entropy term at the last point of a row tile, in the arguments. -/
private theorem bce_row (c : Dev nD) (t : Fin cfg0.N) (h3 : t.val % 4 = 3) (r : Fin 2048) (j : Fin 64) :
    Cert.Spec.bceK (k0_pay3 (F := Ideal) (scr m c t).2.2 (scr m c t).2.1 (ix2 r j)) (yB m c t (ix2 r j)) (mB m c t (ix2 r j))
      = Cert.Spec.bceK (Cert.Spec.pmK (fA m c) (sA m c) (Cert.Spec.bIdx (t.val / 4) r) j)
          (yA m c (ix2 (Cert.Spec.bIdx (t.val / 4) r) j)) (mA m c (ix2 (Cert.Spec.bIdx (t.val / 4) r) j)) := by
  rw [pm_last m c t h3, yB_apply, mB_apply]

/-- What the last point of a row tile stores for window 5, over the targets' and the mask's blocks. -/
private theorem out5_lastB (c : Dev nD) (t : Fin cfg0.N) (h3 : t.val % 4 = 3) :
    (outsAt0 m c t.val t.isLt).2.1 = k0_pay4 (F := Ideal) (scr m c t).2.2 (scr m c t).2.1 (yB m c t) (mB m c t) :=
  out5_last m c t h3

/-- What the last point of a row tile writes back through window 5 is its tile of the partial sums. -/
private theorem flushed5 (c : Dev nD) (t : Fin cfg0.N) (hf : (cfg0.win 5).flush t = true) :
    (dats m 0 c).flushed 5 t
      = ((cfg0.win 5).blk t).view.read (Elt Ideal) (Cert.Spec.partK (fA m c) (yA m c) (mA m c) (sA m c)) := by
  have h3 : t.val % 4 = 3 := (flush0_5 t).mp hf
  show (cfg0.win 5).cut (grid0.coords t) ((dats m 0 c).after 5 t) = _
  rw [after0_5, out5_lastB m c t h3]
  funext y
  obtain ⟨q0, q1, q2, rfl⟩ : ∃ (q0 : Fin 1) (q1 : Fin 8) (q2 : Fin 64), y = ix3 q0 q1 q2 :=
    ⟨y 0, y 1, y 2, eq_ix3 (n0 := 1) (n1 := 8) (n2 := 64) y⟩
  rw [View.read_apply]
  show k0_pay4 (F := Ideal) (scr m c t).2.2 (scr m c t).2.1 (yB m c t) (mB m c t) (ix3 q0 q1 q2)
    = Cert.Spec.partK (fA m c) (yA m c) (mA m c) (sA m c) _
  rw [pay4_apply, emb5, partK_ix3, Finset.sum_congr rfl (fun r _ => bce_row m c t h3 r q2)]

/-- Every entry of the partial sums' array lies in the tile written back at the last point of its row tile,
    point `4 · i₀ + 3`. -/
private theorem cover5 (i : (⟨3, ![4, 8, 64]⟩ : Shape).Idx) :
    ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 64 := (i 2).isLt
  obtain ⟨t, ht⟩ : ∃ t : Fin cfg0.N, t.val = 4 * (i 0).val + 3 :=
    ⟨⟨4 * (i 0).val + 3, lt_of_lt_of_eq (by omega) N_0.symm⟩, rfl⟩
  refine ⟨t, (flush0_5 t).mpr (by omega), ?_⟩
  show i ∈ ((View.whole main_v0_1).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [(index5 t).1]; omega
  | ⟨1, _⟩ =>
    show win0_5.index t 1 * 8 ≤ (i 1).val ∧ (i 1).val < win0_5.index t 1 * 8 + 8
    rw [(index5 t).2.1]; omega
  | ⟨2, _⟩ =>
    show win0_5.index t 2 * 64 ≤ (i 2).val ∧ (i 2).val < win0_5.index t 2 * 64 + 64
    rw [(index5 t).2.2]; omega

/-- The partial sums' array after the run. -/
theorem final5 (c : Dev nD) : (dats m 0 c).arrAt 5 cfg0.N = Cert.Spec.partK (fA m c) (yA m c) (mA m c) (sA m c) :=
  (dats m 0 c).arrAt_eq_of_cover 5 (Cert.Spec.partK (fA m c) (yA m c) (mA m c) (sA m c))
    (fun t hf => flushed5 m c t hf) (fun i => cover5 i)

end Cert.KernelIdeal.KV

end
-- ==== Proof.KRun.lean ====
/-
  The kernel program's run, read. After the region the host sums the [4, 8, 64] array of partial sums from 0
  and divides by 524288: the kernel's loss. The marginals' array is a result as the region left it, and the four
  argument arrays are as the program found them.
-/
import proofs.«428200_j21517786153438_3_alg».proof.Proof.KFinal
import Idealize.ShloMosaic.Lib.Pipeline.Value
import Idealize.ShloMosaic.Lib.StableHlo.Run
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel's loss as the contents of its rank-0 result. -/
def lossBuf (c : Dev nD) : Buf (Elt Ideal) ((c.tc : Thread nD τ).loc main_v2) :=
  fun _ => Cert.Spec.lossK (fA m c) (yA m c) (mA m c) (sA m c)

/-- The host's tail on any [4, 8, 64] array `P` of partial sums: the sum of all entries from `+0.0`, divided by
    524288. A reduction over every axis lands in the rank-0 shape, whose one entry is the initial value plus the
    sum over every index of `P`. -/
private theorem loss_of_parts (P : Cert.Spec.ArrP) (hr : S4x8x64.ReducesTo [0, 1, 2] S_) (hu : 0 < S_.numel)
    (i : S_.Idx) :
    Host.divf (F := Ideal) (φ := .f32)
        (Host.reduceAdd (F := Ideal) (φ := .f32) P (constant (F := Ideal) S_ .f32 0x00000000#32) hr hu)
        (constant (F := Ideal) S_ .f32 0x49000000#32) i
      = Ideal.div (Cert.Spec.zero32 + ∑ q : (⟨3, ![4, 8, 64]⟩ : Shape).Idx, P q) Cert.Spec.c524288 := by
  unfold Host.divf Host.reduceAdd
  rw [Ideal.hostDivf_def, Ideal.hostReduceAdd_def, Ideal.hostReduceAdd_total hr (fun b => b.elim0)]
  rfl

/-- What the host operations after the region leave in the loss's buffer. -/
theorem tail_loss (c : Dev nD) :
    Pipeline.afterTail₀ cfgs (dats m) 0 (V0 m) [hostOps1] c main_v2 = lossBuf m c := by
  unfold Pipeline.afterTail₀
  show StableHlo.after hostOps1 _ (Proc.devRef .tc main_v2) = _
  after_results
  rw [(Pipeline.withArrays_arr spec0 launch0.win.arr_inj c _ _ 5).trans (final5 m c)]
  funext i
  exact loss_of_parts _ _ _ i

/-- Every weakly fair execution of the kernel program ends with the loss and the marginals at the specification's
    kernel-side values and the four arguments unchanged. -/
theorem run : θ_run defs (onTc (τ := τ) (main (F := Ideal))) ⟨m, fun _ => 0, ρ⟩ (fun r => ∀ c : Dev nD,
      r.2.mem ((c.tc : Thread nD τ).loc main_v2) = lossBuf m c
      ∧ r.2.mem ((c.tc : Thread nD τ).loc main_v0_0) = pmArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  -- weaken the run's post: it gives every window's array after the run and every buffer that bypasses the region
  refine (θ_run defs _ _).mono (fun r h c => ?_) (run_main m ρ)
  obtain ⟨harr, hrest⟩ := h c
  -- an input window's array is what the region found, which is the argument as the program found it
  have hin : ∀ w : Fin cfg0.W, (cfg0.win w).isOut = false →
      (dats m 0 c).arrAt w cfg0.N = V m c (Pipeline.arrRef spec0 w) :=
    fun w hw => ((dats m 0 c).arrAt_in w hw _).trans (A_eq m c w)
  refine ⟨?_, ?_, ?_, ?_, ?_, ?_⟩
  · -- the loss: no window's array, so the host's tail decides it
    exact (hrest main_v2 (Pipeline.mem_restRefs_of main_v2 rfl (by decide))).trans (tail_loss m c)
  · -- the marginals: window 4's array
    exact (harr 4).trans (final4 m c)
  · exact (harr 0).trans ((hin 0 rfl).trans (V_main_arg0 m c))
  · exact (harr 2).trans ((hin 2 rfl).trans (V_main_arg1 m c))
  · exact (harr 3).trans ((hin 3 rfl).trans (V_main_arg2 m c))
  · exact (harr 1).trans ((hin 1 rfl).trans (V_main_arg3 m c))

end Cert.KernelIdeal.KV

end
-- ==== Proof.lean ====
/-
  The claim: under the precondition (every entry of the four argument arrays finite) the kernel program, read at
  the extended reals, and the reference compute the same loss and the same [8192, 64] array of marginals.

  The kernel walks a 4 × 4 grid: row tile `i` of 2048 rows against state tile `k` of 1024 states. Per row it
  carries a running maximum, a running denominator and 64 running numerators of a softmax over the 4096 states,
  rescaling the two sums by `exp (old maximum - new maximum)` at every tile; after the fourth tile it stores the
  ratio numerator / denominator clamped to [0, 1], and the row tile's column sums of the cross-entropy terms. The
  reference subtracts the maximum over all 4096 states once and forms the same ratio unclamped. Over the reals a
  softmax ratio does not depend on the shift, and it lies in [0, 1] because the weights are 0 or 1: so the
  marginals agree. Every cross-entropy term is then a finite real, and a finite sum of finite reals divided by
  524288 at once is the same as divided by 64 and then by 8192: so the losses agree.

  The modules: the specification and its two theorems (Spec, SpecSoftmax, SpecLoss); the reference's results read
  index by index (RefValue); the kernel's stores per grid point (KSteps), one point's update row by row (KRow),
  the windows' blocks (KBlocks), the invariant of the grid walk (KInv), the two output arrays after the run
  (KFinal) and the program's run with its host tail (KRun); what the precondition gives (Finite).
  `preserves` is trivial: the ideal pass rewrote nothing.
-/
import proofs.«428200_j21517786153438_3_alg».proof.Defs
import proofs.«428200_j21517786153438_3_alg».proof.Proof.Gen.Kernel
import proofs.«428200_j21517786153438_3_alg».proof.Proof.Gen.Kernel.Skeleton
import proofs.«428200_j21517786153438_3_alg».proof.Proof.Gen.Kernel.Launch
import proofs.«428200_j21517786153438_3_alg».proof.Proof.Gen.Kernel.Points
import proofs.«428200_j21517786153438_3_alg».proof.Proof.Gen.Kernel.Frame
import proofs.«428200_j21517786153438_3_alg».proof.Proof.Gen.KernelIdeal
import proofs.«428200_j21517786153438_3_alg».proof.Proof.Gen.KernelIdeal.Skeleton
import proofs.«428200_j21517786153438_3_alg».proof.Proof.Gen.KernelIdeal.Launch
import proofs.«428200_j21517786153438_3_alg».proof.Proof.Gen.KernelIdeal.Points
import proofs.«428200_j21517786153438_3_alg».proof.Proof.Gen.KernelIdeal.Frame
import proofs.«428200_j21517786153438_3_alg».proof.Proof.Gen.ReferenceIdeal
import proofs.«428200_j21517786153438_3_alg».proof.Proof.Gen.Pre_finite_inputs
import proofs.«428200_j21517786153438_3_alg».proof.Proof.Gen.ReferenceIdeal.Run
import proofs.«428200_j21517786153438_3_alg».proof.Proof.Gen.ReferenceIdeal.Read
import proofs.«428200_j21517786153438_3_alg».proof.Proof.Spec
import proofs.«428200_j21517786153438_3_alg».proof.Proof.SpecSoftmax
import proofs.«428200_j21517786153438_3_alg».proof.Proof.SpecLoss
import proofs.«428200_j21517786153438_3_alg».proof.Proof.RefValue
import proofs.«428200_j21517786153438_3_alg».proof.Proof.Finite
import proofs.«428200_j21517786153438_3_alg».proof.Proof.KRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The ideal pass rewrote no operation. -/
theorem preserves : Cert.preserves_Kernel_KernelIdeal := trivial

/-- From memories that agree on the four arguments, under the precondition, both programs end with the same loss
    and the same marginals: the kernel's at the specification's kernel-side values, the reference's at its
    reference-side values, and the two sides equal by the specification's two theorems. -/
theorem algebraic : Cert.algebraic_KernelIdeal_ReferenceIdeal := by
  intro m ρ m' ρ' hpre hagree
  refine ⟨fun c => Cert.KernelIdeal.KV.lossBuf m c, fun c => Cert.KernelIdeal.KV.pmArr m c,
    Cert.KernelIdeal.KV.run m ρ, ?_⟩
  refine (θ_run Cert.ReferenceIdeal.defs _ _).mono (fun _ h c => ?_)
    (Cert.ReferenceIdeal.Value.run (F := Ideal) m' ρ')
  obtain ⟨h35, h16, ha0, ha1, ha2, ha3⟩ := h c
  obtain ⟨e0, e1, e2, e3⟩ := hagree c
  obtain ⟨hf, hy, hm, hS⟩ := Cert.FiniteInputs.finite_of_fn _ _ _ _ (hpre c)
  refine ⟨h35.trans ?_, h16.trans ?_, ha0, ha1, ha2, ha3⟩
  · rw [Cert.ReferenceIdeal.Read.val_main_v35_eq, Cert.ReferenceIdeal.RefValue.v35_eq, e0, e1, e2, e3]
    funext _
    exact (Cert.Spec.lossK_eq_lossR _ _ _ _ hf hy hm hS).symm
  · refine (Cert.ReferenceIdeal.Read.val_main_v16_eq _ _).trans ?_
    rw [Cert.ReferenceIdeal.RefValue.v16_eq, e0, e3]
    funext i
    exact (Cert.Spec.pmK_eq_pmR _ _ hf hS (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
